-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S_ : Shape := ⟨0, ![]⟩
abbrev S1x1600000 : Shape := ⟨2, ![1, 1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_v8 : IVec S_ 1) (main_v17 : IVec S1600000 1) : IVec S_ 1 :=
  let main_c_4 : IVec S_ 1 := constantI S_ 1 1#1
  let main_v18 : IVec S_ 1 := (fun x v => Host.reduce IntOp.andi x v reducesTo_S1600000_S_d0 h_S_) main_v17 main_c_4
  let main_v19 : IVec S_ 1 := andi main_v8 main_v18
  main_v19

def fn {F : FTy → Type} [FloatOps F] (main_arg0 : FVec F S100000x32 .f32) (main_arg1 : IVec S2x1600000 32) (main_arg2 : FVec F S1600000 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : IVec S1x1600000 32 := (extractStridedSlice S1x1600000 ![0, 0] · slices_S2x1600000_S1x1600000_0_0) main_arg1
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_v13 : IVec S1x1600000 32 := (extractStridedSlice S1x1600000 ![0, 0] · slices_S2x1600000_S1x1600000_0_0) main_arg1
  let main_v14 : IVec S1600000 32 := shapeCast S1600000 main_v13 shapeCasts_S1x1600000_S1600000
  let main_c_3 : IVec S_ 32 := constantI S_ 32 100000#32
  let main_v15 : IVec S1600000 32 := broadcastInDim S1600000 ![] bcast_S_S1600000 main_c_3
  let main_v16 : IVec S1600000 1 := cmpi .slt main_v14 main_v15
  let main_v17 : IVec S1600000 1 := andi main_v12 main_v16
  fn_part1 (F := F) main_v8 main_v17
-- ==== Kernel.lean ====
abbrev S100000x32 : Shape := ⟨2, ![100000, 32]⟩
abbrev S2x1600000 : Shape := ⟨2, ![2, 1600000]⟩
abbrev S1600000 : Shape := ⟨1, ![1600000]⟩
abbrev S1x1600000 : Shape := ⟨2, ![1, 1600000]⟩
abbrev S1600000x32 : Shape := ⟨2, ![1600000, 32]⟩
abbrev S800x32 : Shape := ⟨2, ![800, 32]⟩
abbrev S1x3200 : Shape := ⟨2, ![1, 3200]⟩
abbrev S3200x32 : Shape := ⟨2, ![3200, 32]⟩
abbrev S3200 : Shape := ⟨1, ![3200]⟩
abbrev S3200x800 : Shape := ⟨2, ![3200, 800]⟩
abbrev S3200x1 : Shape := ⟨2, ![3200, 1]⟩
abbrev S800x3200 : Shape := ⟨2, ![800, 3200]⟩

abbrev nBuf : Space → Nat
  | .hbm => 12
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1x1600000, .f32⟩
  | .hbm, ⟨10, _⟩ => ⟨S1600000x32, .f32⟩
  | .hbm, ⟨11, _⟩ => ⟨S100000x32, .f32⟩
  | .local _ .vmem, ⟨0, _⟩ => ⟨S800x32, .f32⟩
  | .local _ .vmem, ⟨1, _⟩ => ⟨S800x32, .f32⟩
  | .local _ .vmem, ⟨2, _⟩ => ⟨S1x3200, .i32⟩
  | .local _ .vmem, ⟨3, _⟩ => ⟨S1x3200, .i32⟩
  | .local _ .vmem, ⟨4, _⟩ => ⟨S1x3200, .f32⟩
  | .local _ .vmem, ⟨5, _⟩ => ⟨S1x3200, .f32⟩
  | .local _ .vmem, ⟨6, _⟩ => ⟨S3200x32, .f32⟩
  | .local _ .vmem, ⟨7, _⟩ => ⟨S3200x32, .f32⟩
  | .local _ .vmem, ⟨8, _⟩ => ⟨S3200x32, .f32⟩
  | .local _ .vmem, ⟨9, _⟩ => ⟨S3200x32, .f32⟩
  | .local _ .vmem, ⟨10, _⟩ => ⟨S1x3200, .i32⟩
  | .local _ .vmem, ⟨11, _⟩ => ⟨S1x3200, .i32⟩
  | .local _ .vmem, ⟨12, _⟩ => ⟨S800x32, .f32⟩
  | .local _ .vmem, ⟨13, _⟩ => ⟨S800x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![500, 125], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3200x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![125, 500], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S3200x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x3200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S800x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_0_0 : S2x1600000.Slices ![0, 0] S1x1600000
  shapeCasts_S1x1600000_S1600000 : S1x1600000.ShapeCasts S1600000
  shapeCasts_S1600000_S1x1600000 : S1600000.ShapeCasts S1x1600000
  slices_S2x1600000_S1x1600000_1_0 : S2x1600000.Slices ![1, 0] S1x1600000
  inb_S3200x32_S3200x32_0_0 : ∀ a, (![0, 0] : Fin 2 → Nat) a + S3200x32.size a ≤ S3200x32.size a
  h_S3200x32 : 0 < S3200x32.numel
  inb_S1x3200_S1x3200_0_0 : ∀ a, (![0, 0] : Fin 2 → Nat) a + S1x3200.size a ≤ S1x3200.size a
  h_S1x3200 : 0 < S1x3200.numel
  shapeCasts_S1x3200_S3200 : S1x3200.ShapeCasts S3200
  iota_S3200x800_d1_w32 : S3200x800.Iotas .tc 32 [1]
  shapeCasts_S3200_S3200x1 : S3200.ShapeCasts S3200x1
  broadcasts_S3200x1_S3200x800 : S3200x1.Broadcasts S3200x800
  natLt_1_32 : 1 < 32
  bitsLt_bf16_f32 : FTy.bits .bf16 < FTy.bits .f32
  inb_S800x32_S800x32_0_0 : ∀ a, (![0, 0] : Fin 2 → Nat) a + S800x32.size a ≤ S800x32.size a
  h_S800x32 : 0 < S800x32.numel
  shapeCasts_S3200x32_S3200x32 : S3200x32.ShapeCasts S3200x32
  broadcasts_S3200x1_S3200x32 : S3200x1.Broadcasts S3200x32
  iota_S800x3200_d0_w32 : S800x3200.Iotas .tc 32 [0]
  shapeCasts_S3200_S1x3200 : S3200.ShapeCasts S1x3200
  broadcasts_S1x3200_S800x3200 : S1x3200.Broadcasts S800x3200
  shapeCasts_S800x32_S800x32 : S800x32.ShapeCasts S800x32
  dot_S3200x800_S800x32_S3200x32_1_0_0_1_n_n_wf : DotDims.WF S3200x800 S800x32 S3200x32 [1] [0] [0] [1] [] []
  dot_S800x3200_S3200x32_S800x32_1_0_0_1_n_n_wf : DotDims.WF S800x3200 S3200x32 S800x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32.size a ≤ S100000x32.size a
  hwx0_0 : ∀ i : grid0.Coords, EltTy.bits .f32 = 32 ∨ (Rect.block (s := S100000x32) S800x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x1600000.size a
  hwx0_1 : ∀ i : grid0.Coords, EltTy.bits .i32 = 32 ∨ (Rect.block (s := S1x1600000) S1x3200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x1600000.size a
  hwx0_2 : ∀ i : grid0.Coords, EltTy.bits .f32 = 32 ∨ (Rect.block (s := S1x1600000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x32.size a ≤ S1600000x32.size a
  hwx0_3 : ∀ i : grid0.Coords, EltTy.bits .f32 = 32 ∨ (Rect.block (s := S1600000x32) S3200x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x32.size a ≤ S1600000x32.size a
  hwx1_0 : ∀ i : grid1.Coords, EltTy.bits .f32 = 32 ∨ (Rect.block (s := S1600000x32) S3200x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3200.size a ≤ S1x1600000.size a
  hwx1_1 : ∀ i : grid1.Coords, EltTy.bits .i32 = 32 ∨ (Rect.block (s := S1x1600000) S1x3200.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x32.size a ≤ S100000x32.size a
  hwx1_2 : ∀ i : grid1.Coords, EltTy.bits .f32 = 32 ∨ (Rect.block (s := S100000x32) S800x32.size (cc1_transform_2 i) (hinb1_2 i)).WholeWords (EltTy.packing .f32)

variable [Facts₀]

def dot_S3200x800_S800x32_S3200x32_1_0_0_1_n_n : DotDims S3200x800 S800x32 S3200x32 where
  lhsContracting := [1]
  rhsContracting := [0]
  lhsNonContracting := [0]
  rhsNonContracting := [1]
  lhsBatch := []
  rhsBatch := []
  wf := dot_S3200x800_S800x32_S3200x32_1_0_0_1_n_n_wf
def dot_S800x3200_S3200x32_S800x32_1_0_0_1_n_n : DotDims S800x3200 S3200x32 S800x32 where
  lhsContracting := [1]
  rhsContracting := [0]
  lhsNonContracting := [0]
  rhsNonContracting := [1]
  lhsBatch := []
  rhsBatch := []
  wf := dot_S800x3200_S3200x32_S800x32_1_0_0_1_n_n_wf

abbrev win0_0 : Pipeline.Window sig grid0 :=
  Pipeline.Window.ofSpec (Memref.whole main_arg0) S800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3200x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S3200x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S800x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 23
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x1, .f32⟩
  | .hbm, ⟨17, _⟩ => ⟨S1600000x32, .f32⟩
  | .hbm, ⟨18, _⟩ => ⟨S1600000x32, .f32⟩
  | .hbm, ⟨19, _⟩ => ⟨S_, .f32⟩
  | .hbm, ⟨20, _⟩ => ⟨S100000x32, .f32⟩
  | .hbm, ⟨21, _⟩ => ⟨S1600000x1, .i32⟩
  | .hbm, ⟨22, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
/-
  A gather of node rows along edges, scaled by an edge weight, then summed into the rows of the edges' targets.

  For node features x (100000 rows of 32 entries), edges e with a source word, a target word and a weight, the message of
  edge e is row src e of x times the weight of e, and the result's row n is the sum of the messages of the edges whose
  target is n. This file states that result in two shapes over the extended reals and proves them equal:

  * the SELECTING shape: every row access is written as a sum over all candidate rows of a weight that is one on the
    wanted row and zero elsewhere, the candidates grouped in blocks (125 blocks of 800 nodes, 500 blocks of 3200 edges);
  * the INDEXED shape: row src e is read directly, and row n sums over the edges whose target word is n.

  The two agree when every source word is the number of a row (0 ≤ src e < 100000); a target word that is no row number
  selects nothing on either side. The laws used are 0 · v = 0 and 1 · v = v, which hold for every extended real, and
  the re-grouping of a finite sum; no finiteness is needed.
-/
import Idealize.ShloMosaic.PureOps.Ideal.Laws
import Idealize.ShloMosaic.Lib.ValueIdx

noncomputable section

open scoped BigOperators

namespace Cert.Spec

open Idealize.ShloMosaic Idealize.ShloMosaic.ValueIdx

/-- Node features: 100000 rows of 32. -/
abbrev SX : Shape := ⟨2, ![100000, 32]⟩
/-- One word or weight per edge, kept as a row. -/
abbrev SRow : Shape := ⟨2, ![1, 1600000]⟩
/-- One message per edge: 1600000 rows of 32. -/
abbrev SMsg : Shape := ⟨2, ![1600000, 32]⟩
/-- The two index rows (sources, targets). -/
abbrev SPair : Shape := ⟨2, ![2, 1600000]⟩
/-- One weight per edge, as a vector. -/
abbrev SVec : Shape := ⟨1, ![1600000]⟩

/-- The selecting weight of two words: one when they are the same word, zero otherwise. -/
def hot (a b : BitVec 32) : EReal := if a = b then 1 else 0

/-- Node j of node block k. -/
def nodeRow (k : Fin 125) (j : Fin 800) : Fin 100000 := ⟨k.val * 800 + j.val, by omega⟩
/-- Edge r of edge block b. -/
def edgeRow (b : Fin 500) (r : Fin 3200) : Fin 1600000 := ⟨b.val * 3200 + r.val, by omega⟩

/-- The row a source word addresses: the word read as a signed integer, kept inside 0 … 99999. -/
def rowOf (w : BitVec 32) : Fin 100000 := ⟨min w.toInt.toNat 99999, by omega⟩

/-- Node block k's share of the selected row: the nodes of the block, each weighted by whether the word is its number. -/
def gpart (x : SX.Idx → EReal) (w : BitVec 32) (c : Fin 32) (k : Fin 125) : EReal :=
  ∑ j : Fin 800, hot w (BitVec.ofNat 32 (nodeRow k j).val) * x (ix2 (nodeRow k j) c)

/-- The shares of node blocks 0 … n. -/
def gUpTo (x : SX.Idx → EReal) (w : BitVec 32) (c : Fin 32) (n : ℕ) : EReal :=
  ∑ k : Fin 125, if k.val ≤ n then gpart x w c k else 0

/-- The messages in the selecting shape: all node blocks' shares, times the edge's weight. -/
def msgsFn (x : SX.Idx → EReal) (src : SRow.Idx → BitVec 32) (ew : SRow.Idx → EReal) : SMsg.Idx → EReal :=
  fun i => (∑ k : Fin 125, gpart x (src (ix2 (0 : Fin 1) (i 0))) (i 1) k) * ew (ix2 (0 : Fin 1) (i 0))

/-- Edge block b's share of row n: the edges of the block, each weighted by whether its target word is n. -/
def spart (msgs : SMsg.Idx → EReal) (tgt : SRow.Idx → BitVec 32) (n : Fin 100000) (c : Fin 32) (b : Fin 500) : EReal :=
  ∑ r : Fin 3200, hot (BitVec.ofNat 32 n.val) (tgt (ix2 (0 : Fin 1) (edgeRow b r))) * msgs (ix2 (edgeRow b r) c)

/-- The shares of edge blocks 0 … n. -/
def sUpTo (msgs : SMsg.Idx → EReal) (tgt : SRow.Idx → BitVec 32) (n : Fin 100000) (c : Fin 32) (m : ℕ) : EReal :=
  ∑ b : Fin 500, if b.val ≤ m then spart msgs tgt n c b else 0

/-- The result in the selecting shape: all edge blocks' shares. -/
def outFn (msgs : SMsg.Idx → EReal) (tgt : SRow.Idx → BitVec 32) : SX.Idx → EReal :=
  fun i => ∑ b : Fin 500, spart msgs tgt (i 0) (i 1) b

/-- The result in the indexed shape: row n sums, over the edges whose target word is n, row src e of x times the weight. -/
def target (x : SX.Idx → EReal) (a : SPair.Idx → BitVec 32) (ew : SVec.Idx → EReal) : SX.Idx → EReal :=
  fun i => ∑ e : Fin 1600000,
    if (a (ix2 (1 : Fin 2) e)).toInt = ((i 0).val : ℤ) then x (ix2 (rowOf (a (ix2 (0 : Fin 2) e))) (i 1)) * ew (ix1 e) else 0

/-! ## Running shares -/

theorem upTo_zero {M : Type*} [AddCommMonoid M] {N : ℕ} (hN : 0 < N) (f : Fin N → M) :
    (∑ k : Fin N, if k.val ≤ 0 then f k else 0) = f ⟨0, hN⟩ := by
  rw [Finset.sum_eq_single (⟨0, hN⟩ : Fin N)]
  · simp
  · intro k _ hk
    have : ¬ k.val ≤ 0 := fun h => hk (Fin.ext (Nat.le_zero.mp h))
    rw [if_neg this]
  · intro h; exact absurd (Finset.mem_univ _) h

theorem upTo_succ {M : Type*} [AddCommMonoid M] {N : ℕ} (f : Fin N → M) (n : ℕ) (hn : n + 1 < N) :
    (∑ k : Fin N, if k.val ≤ n + 1 then f k else 0) = (∑ k : Fin N, if k.val ≤ n then f k else 0) + f ⟨n + 1, hn⟩ := by
  have h1 : ∀ k : Fin N, (if k.val ≤ n + 1 then f k else 0) = (if k.val ≤ n then f k else 0) + (if k = ⟨n + 1, hn⟩ then f k else 0) := by
    intro k
    by_cases hk : k.val ≤ n
    · have hne : k ≠ ⟨n + 1, hn⟩ := fun h => by rw [h] at hk; simp at hk
      rw [if_pos hk, if_pos (Nat.le_succ_of_le hk), if_neg hne, add_zero]
    · by_cases hk1 : k = ⟨n + 1, hn⟩
      · subst hk1
        simp
      · have : ¬ k.val ≤ n + 1 := fun h => hk1 (Fin.ext (show k.val = n + 1 by have := Nat.lt_of_not_le hk; omega))
        rw [if_neg hk, if_neg this, if_neg hk1, add_zero]
  rw [Finset.sum_congr rfl (fun k _ => h1 k), Finset.sum_add_distrib]
  congr 1
  rw [Finset.sum_ite_eq' Finset.univ (⟨n + 1, hn⟩ : Fin N) f]
  simp

theorem upTo_last {M : Type*} [AddCommMonoid M] {N : ℕ} (f : Fin N → M) (n : ℕ) (hn : N ≤ n + 1) :
    (∑ k : Fin N, if k.val ≤ n then f k else 0) = ∑ k : Fin N, f k :=
  Finset.sum_congr rfl fun k _ => if_pos (by have := k.isLt; omega)

/-! ## The selecting shape is the indexed shape -/

/-- A word below 2³¹ read as a signed integer is its unsigned value. -/
theorem toInt_of_nonneg (w : BitVec 32) (h0 : 0 ≤ w.toInt) : w.toInt = (w.toNat : ℤ) := by
  have hlt := w.isLt
  rw [BitVec.toInt_eq_toNat_cond] at h0 ⊢
  split_ifs at h0 ⊢ with h
  · rfl
  · exfalso; omega

/-- A word is the numeral m (below 2³²) exactly when its unsigned value is m. -/
theorem eq_ofNat_iff (w : BitVec 32) (m : ℕ) (hm : m < 2 ^ 32) : w = BitVec.ofNat 32 m ↔ w.toNat = m := by
  constructor
  · intro h; rw [h, BitVec.toNat_ofNat, Nat.mod_eq_of_lt hm]
  · intro h; apply BitVec.eq_of_toNat_eq; rw [BitVec.toNat_ofNat, Nat.mod_eq_of_lt hm, h]

/-- The weight of a word against a numeral. -/
theorem hot_ofNat (w : BitVec 32) (m : ℕ) (hm : m < 2 ^ 32) : hot w (BitVec.ofNat 32 m) = if w.toNat = m then 1 else 0 := by
  unfold hot
  exact if_congr (eq_ofNat_iff w m hm) rfl rfl

/-- A source word that is a row number addresses that row. -/
theorem rowOf_val (w : BitVec 32) (h0 : 0 ≤ w.toInt) (h1 : w.toInt < 100000) : (rowOf w).val = w.toNat := by
  have e := toInt_of_nonneg w h0
  show min w.toInt.toNat 99999 = w.toNat
  rw [e] at h1 ⊢
  rw [Int.toNat_natCast]
  omega

/-- THE GATHER: over all node blocks, the selecting sums pick row src of the features, when src is a row number. -/
theorem gather_collapse (x : SX.Idx → EReal) (w : BitVec 32) (c : Fin 32) (h0 : 0 ≤ w.toInt) (h1 : w.toInt < 100000) :
    ∑ k : Fin 125, gpart x w c k = x (ix2 (rowOf w) c) := by
  have hv := rowOf_val w h0 h1
  have hn : w.toNat < 100000 := by rw [← hv]; exact (rowOf w).isLt
  rw [Finset.sum_eq_single (⟨w.toNat / 800, by omega⟩ : Fin 125)]
  · unfold gpart
    rw [Finset.sum_eq_single (⟨w.toNat % 800, Nat.mod_lt _ (by norm_num)⟩ : Fin 800)]
    · have e : nodeRow ⟨w.toNat / 800, by omega⟩ ⟨w.toNat % 800, Nat.mod_lt _ (by norm_num)⟩ = rowOf w := by
        apply Fin.ext; rw [hv]; show w.toNat / 800 * 800 + w.toNat % 800 = w.toNat; omega
      rw [e, hot_ofNat w _ (by have := (rowOf w).isLt; omega), if_pos hv.symm, one_mul]
    · intro j _ hj
      rw [hot_ofNat w _ (by have := (nodeRow ⟨w.toNat / 800, by omega⟩ j).isLt; omega), if_neg, zero_mul]
      intro h
      apply hj; apply Fin.ext
      have : w.toNat = w.toNat / 800 * 800 + j.val := h
      show j.val = w.toNat % 800
      omega
    · intro h; exact absurd (Finset.mem_univ _) h
  · intro k _ hk
    unfold gpart
    apply Finset.sum_eq_zero
    intro j _
    rw [hot_ofNat w _ (by have := (nodeRow k j).isLt; omega), if_neg, zero_mul]
    intro h
    apply hk; apply Fin.ext
    have : w.toNat = k.val * 800 + j.val := h
    have hj := j.isLt
    show k.val = w.toNat / 800
    omega
  · intro h; exact absurd (Finset.mem_univ _) h

/-- The weight of a row number against a target word, times a value: the value when the word, read signed, is the row. -/
theorem hot_mul (n : Fin 100000) (t : BitVec 32) (v : EReal) :
    hot (BitVec.ofNat 32 n.val) t * v = if t.toInt = (n.val : ℤ) then v else 0 := by
  have hn := n.isLt
  unfold hot
  by_cases h : t.toInt = (n.val : ℤ)
  · have e := toInt_of_nonneg t (by rw [h]; exact Int.natCast_nonneg _)
    have : t = BitVec.ofNat 32 n.val := (eq_ofNat_iff t n.val (by omega)).2 (by rw [e] at h; exact_mod_cast h)
    rw [if_pos this.symm, if_pos h, one_mul]
  · have : ¬ BitVec.ofNat 32 n.val = t := by
      intro e
      apply h
      rw [← e, BitVec.toInt_eq_toNat_cond, BitVec.toNat_ofNat, Nat.mod_eq_of_lt (by omega)]
      rw [if_pos (by omega)]
    rw [if_neg this, if_neg h, zero_mul]

/-- Edge blocks of 3200 tile the 1600000 edges: a sum over blocks and over the edges of a block is the sum over edges. -/
theorem sum_edgeRow {M : Type*} [AddCommMonoid M] (g : Fin 1600000 → M) :
    ∑ b : Fin 500, ∑ r : Fin 3200, g (edgeRow b r) = ∑ e : Fin 1600000, g e := by
  rw [← Fintype.sum_prod_type' (f := fun b r => g (edgeRow b r))]
  rw [← Equiv.sum_comp (finProdFinEquiv : Fin 500 × Fin 3200 ≃ Fin (500 * 3200)) (fun e => g e)]
  refine Finset.sum_congr rfl fun p _ => ?_
  congr 1
  apply Fin.ext
  show p.1.val * 3200 + p.2.val = p.2.val + 3200 * p.1.val
  omega

/-- THE SCATTER: the selecting sums over all edge blocks are the sum over the edges whose target word is the row. -/
theorem outFn_apply (msgs : SMsg.Idx → EReal) (tgt : SRow.Idx → BitVec 32) (n : Fin 100000) (c : Fin 32) :
    outFn msgs tgt (ix2 n c)
      = ∑ e : Fin 1600000, if (tgt (ix2 (0 : Fin 1) e)).toInt = (n.val : ℤ) then msgs (ix2 e c) else 0 := by
  show ∑ b : Fin 500, spart msgs tgt n c b = _
  unfold spart
  rw [← sum_edgeRow (fun e => if (tgt (ix2 (0 : Fin 1) e)).toInt = (n.val : ℤ) then msgs (ix2 e c) else 0)]
  refine Finset.sum_congr rfl fun b _ => Finset.sum_congr rfl fun r _ => ?_
  exact hot_mul n _ _

/-- THE TWO SHAPES AGREE: with the source, target and weight rows read off the index pair and the weight vector, and
    every source word a row number, the selecting shape of the result is the indexed shape. -/
theorem select_eq_target (x : SX.Idx → EReal) (a : SPair.Idx → BitVec 32) (ew : SVec.Idx → EReal)
    (src tgt : SRow.Idx → BitVec 32) (ewr : SRow.Idx → EReal)
    (hs : ∀ e : Fin 1600000, src (ix2 (0 : Fin 1) e) = a (ix2 (0 : Fin 2) e))
    (ht : ∀ e : Fin 1600000, tgt (ix2 (0 : Fin 1) e) = a (ix2 (1 : Fin 2) e))
    (hw : ∀ e : Fin 1600000, ewr (ix2 (0 : Fin 1) e) = ew (ix1 e))
    (hr : ∀ e : Fin 1600000, 0 ≤ (a (ix2 (0 : Fin 2) e)).toInt ∧ (a (ix2 (0 : Fin 2) e)).toInt < 100000) :
    outFn (msgsFn x src ewr) tgt = target x a ew := by
  funext i
  obtain ⟨n, c, rfl⟩ : ∃ (n : Fin 100000) (c : Fin 32), i = ix2 n c := ⟨i 0, i 1, eq_ix2 i⟩
  rw [outFn_apply]
  show _ = ∑ e : Fin 1600000,
    if (a (ix2 (1 : Fin 2) e)).toInt = (n.val : ℤ) then x (ix2 (rowOf (a (ix2 (0 : Fin 2) e))) c) * ew (ix1 e) else 0
  refine Finset.sum_congr rfl fun e _ => ?_
  rw [ht e]
  refine if_congr Iff.rfl ?_ rfl
  show (∑ k : Fin 125, gpart x (src (ix2 (0 : Fin 1) e)) c k) * ewr (ix2 (0 : Fin 1) e) = _
  rw [hs e, hw e, gather_collapse x _ c (hr e).1 (hr e).2]

end Cert.Spec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Region0Pieces.lean ====
/-
  Region 0 (the gather), one grid point: what the body leaves in the edge block's staging buffer, case by case, and the
  body's three stored values read at an entry over the extended reals.

  The stored values: a block of zeros; the buffer plus the product of the selecting weights (edge r against node j of
  the point's node block: the edge's source word compared with the node's number) with the node block of the features;
  and the buffer times the edge weights, row by row. At an entry (r, q) the product is the sum over the 800 nodes j of
  the block of the weight of (r, j) times the feature (j, q): a change of float format is the identity on the extended
  reals, and a compare's bit widened and read as a float is one or zero.
-/
import proofs.«413934_j61211873902725_1_alg».proof.Proof.IdealFrame
import proofs.«413934_j61211873902725_1_alg».proof.Proof.Spec
import proofs.«413934_j61211873902725_1_alg».proof.Proof.LibPlainDot
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem

namespace Cert.KernelIdeal.GatherPieces

open Cert.KernelIdeal Cert.KernelIdeal.Gen Cert.KernelIdeal.GenP Idealize.ShloMosaic.ValueIdx

section AnyFloat
variable {F : FTy → Type} [FloatOps F]

/-- The two zero offsets, however they are spelt. -/
private theorem hz : (![0, 0] : Fin 2 → Nat) = fun _ => 0 := funext fun a => by fin_cases a <;> rfl

/-- First node block, not the last: the buffer is zeroed, then the product is added to the zeros. -/
theorem out_A (c : Dev nD) (i : grid0.Coords) (arg2 : Memref sig .tc .vmem S800x32 .f32) (harg2 : arg2.IsWhole) (arg3 : Memref sig .tc .vmem S1x3200 .i32) (harg3 : arg3.IsWhole) (arg4 : Memref sig .tc .vmem S1x3200 .f32) (harg4 : arg4.IsWhole) (arg5 : Memref sig .tc .vmem S3200x32 .f32) (harg5 : arg5.IsWhole) (hc0 : cond0_0 i) (hc1 : ¬cond0_1 i)
    (x0 : Vec F S800x32 .f32) (x1 : Vec F S1x3200 .i32) (x2 : Vec F S1x3200 .f32) :
    out0_A_3 c i arg2 harg2 arg3 harg3 arg4 harg4 arg5 harg5 hc0 hc1 x0 x1 x2 = k0_pay2 i x1 x0 (k0_pay1 (F := F)) := by
  unfold out0_A_3
  rw [View.read_writes_eq_canon _ _ _ (cover0_A_3 c i arg2 harg2 arg3 harg3 arg4 harg4 arg5 harg5 hc0 hc1 x0 x1 x2)]
  unfold kernelRun0_A
  dsimp only
  sl_unfold_words
  rw [View.canon_cons_unit_zero (S := S3200x32) hz, View.readCov_unit_zero (S := S3200x32) _ hz]
  simp only [View.readAt_eq_ld, harg2.read_unread, harg3.read_unread, harg4.read_unread, harg5.read_unread,
    View.ld_unit_zero (S := S800x32) hz, View.ld_unit_zero (S := S1x3200) hz, View.ld_unit_zero (S := S3200x32) hz]

/-- A middle node block: the product is added to what the buffer held. -/
theorem out_B (c : Dev nD) (i : grid0.Coords) (arg2 : Memref sig .tc .vmem S800x32 .f32) (harg2 : arg2.IsWhole) (arg3 : Memref sig .tc .vmem S1x3200 .i32) (harg3 : arg3.IsWhole) (arg4 : Memref sig .tc .vmem S1x3200 .f32) (harg4 : arg4.IsWhole) (arg5 : Memref sig .tc .vmem S3200x32 .f32) (harg5 : arg5.IsWhole) (hc0 : ¬cond0_0 i) (hc1 : ¬cond0_1 i)
    (x0 : Vec F S800x32 .f32) (x1 : Vec F S1x3200 .i32) (x2 : Vec F S1x3200 .f32) (xo3 : Vec F S3200x32 .f32) :
    out0_B_3 c i arg2 harg2 arg3 harg3 arg4 harg4 arg5 harg5 hc0 hc1 x0 x1 x2 xo3 = k0_pay2 i x1 x0 xo3 := by
  unfold out0_B_3
  rw [View.read_writes_eq_canon _ _ _ (cover0_B_3 c i arg2 harg2 arg3 harg3 arg4 harg4 arg5 harg5 hc0 hc1 x0 x1 x2 xo3)]
  unfold kernelRun0_B
  dsimp only
  sl_unfold_words
  rw [View.canon_unit_zero hz]
  simp only [View.readAt_eq_ld, harg2.read_unread, harg3.read_unread, harg4.read_unread, harg5.read_unread,
    View.ld_unit_zero (S := S800x32) hz, View.ld_unit_zero (S := S1x3200) hz, View.ld_unit_zero (S := S3200x32) hz]

/-- The last node block: the product is added, and the sum is multiplied by the edge weights. -/
theorem out_C (c : Dev nD) (i : grid0.Coords) (arg2 : Memref sig .tc .vmem S800x32 .f32) (harg2 : arg2.IsWhole) (arg3 : Memref sig .tc .vmem S1x3200 .i32) (harg3 : arg3.IsWhole) (arg4 : Memref sig .tc .vmem S1x3200 .f32) (harg4 : arg4.IsWhole) (arg5 : Memref sig .tc .vmem S3200x32 .f32) (harg5 : arg5.IsWhole) (hc0 : ¬cond0_0 i) (hc1 : cond0_1 i)
    (x0 : Vec F S800x32 .f32) (x1 : Vec F S1x3200 .i32) (x2 : Vec F S1x3200 .f32) (xo3 : Vec F S3200x32 .f32) :
    out0_C_3 c i arg2 harg2 arg3 harg3 arg4 harg4 arg5 harg5 hc0 hc1 x0 x1 x2 xo3 = k0_pay3 (k0_pay2 i x1 x0 xo3) x2 := by
  unfold out0_C_3
  rw [View.read_writes_eq_canon _ _ _ (cover0_C_3 c i arg2 harg2 arg3 harg3 arg4 harg4 arg5 harg5 hc0 hc1 x0 x1 x2 xo3)]
  unfold kernelRun0_C
  dsimp only
  sl_unfold_words
  rw [View.canon_cons_unit_zero (S := S3200x32) hz, View.readCov_unit_zero (S := S3200x32) _ hz]
  simp only [View.readAt_eq_ld, harg2.read_unread, harg3.read_unread, harg4.read_unread, harg5.read_unread,
    View.ld_unit_zero (S := S800x32) hz, View.ld_unit_zero (S := S1x3200) hz, View.ld_unit_zero (S := S3200x32) hz]

end AnyFloat

/-- A column [a, 1] spread over the columns of [a, b] reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector's entry i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row [1, a] taken as a vector, then as a column, then spread over b columns, reads at (p, c) the row's entry p. -/
private theorem column_of_row_apply {α : Type} {a b : ℕ} (x : (⟨2, ![1, a]⟩ : Shape).Idx → α)
    (h1 : (⟨2, ![1, a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ x h1) h2) h3 (ix2 p c) = x (ix2 (0 : Fin 1) p) :=
  (broadcastTo_a1_ab_apply _ h3 p c).trans ((shapeCast_a_a1_apply _ h2 p 0).trans (shapeCast_1a_a_apply x h1 p))

/-- A compare-for-equality's bit, widened to a word and read as a signed integer in the extended reals, is one when
    the two words are the same and zero otherwise. -/
private theorem weight_eq (a b : BitVec 32) :
    (FloatOps.sitofp (F := Ideal) .f32 ((IntOp.cmpi .eq a b).setWidth 32) : Ideal .f32) = Cert.Spec.hot a b := by
  unfold Cert.Spec.hot
  by_cases h : a = b
  · rw [if_pos h, Idealize.ShloMosaic.StableHlo.Predicate.cmpi_eq_iff.mpr h]
    show ((((1#1 : BitVec 1).setWidth 32).toInt : ℝ) : EReal) = 1
    rw [show ((1#1 : BitVec 1).setWidth 32).toInt = 1 from by decide]
    norm_num
  · rw [if_neg h, eq_zero_of_ne_one (fun hc => h (Idealize.ShloMosaic.StableHlo.Predicate.cmpi_eq_iff.mp hc))]
    show ((((0#1 : BitVec 1).setWidth 32).toInt : ℝ) : EReal) = 0
    rw [show ((0#1 : BitVec 1).setWidth 32).toInt = 0 from by decide]
    norm_num

/-- The node word: the column number plus eight hundred times the block number is the node's number, as words. -/
private theorem nodeWord_eq (k j : ℕ) :
    BitVec.ofNat 32 j + BitVec.ofNat 32 k * 800#32 = BitVec.ofNat 32 (k * 800 + j) := by
  rw [BitVec.ofNat_add, BitVec.ofNat_mul, BitVec.add_comm]

/-- The zero block is zero at every entry. -/
theorem zero_apply (r : Fin 3200) (q : Fin 32) : k0_pay1 (F := Ideal) (ix2 r q) = 0 := by
  unfold k0_pay1
  exact Ideal.ofBits_zero_f32

/-- The accumulating step at entry (r, q): the buffer's entry plus, over the nodes j of node block (i 1), the selecting
    weight of edge r's source word against node number (i 1)·800 + j, times the feature (j, q) of the block. -/
theorem step_apply (i : grid0.Coords) (srcb : Vec Ideal S1x3200 .i32) (xb : Vec Ideal S800x32 .f32)
    (acc : Vec Ideal S3200x32 .f32) (r : Fin 3200) (q : Fin 32) :
    k0_pay2 (F := Ideal) i srcb xb acc (ix2 r q)
      = acc (ix2 r q) + ∑ j : Fin 800,
          Cert.Spec.hot (srcb (ix2 (0 : Fin 1) r)) (BitVec.ofNat 32 ((i 1).val * 800 + j.val)) * xb (ix2 j q) := by
  unfold k0_pay2
  refine (addf_apply _ _ (ix2 r q)).trans ?_
  refine congrArg₂ (· + ·) ?_ ?_
  · exact congrFun (shapeCast_self acc shapeCasts_S3200x32_S3200x32) (ix2 r q)
  · refine (Cert.LibPlainDot.matmul_plain_apply 3200 800 32 none _ _ r q).trans ?_
    refine Finset.sum_congr rfl fun j _ => ?_
    refine congrArg₂ (· * ·) ?_ rfl
    refine (weight_eq _ _).trans ?_
    refine congrArg₂ Cert.Spec.hot ?_ ?_
    · exact column_of_row_apply srcb shapeCasts_S1x3200_S3200 shapeCasts_S3200_S3200x1 broadcasts_S3200x1_S3200x800 r j
    · refine Eq.trans ?_ (nodeWord_eq (i 1).val j.val)
      refine congrArg₂ (· + ·) ?_ rfl
      exact iota_single_apply .tc S3200x800 32 1 iota_S3200x800_d1_w32 (ix2 r j)

/-- The scaling at entry (r, q): the buffer's entry times edge r's weight. -/
theorem scale_apply (acc : Vec Ideal S3200x32 .f32) (ewb : Vec Ideal S1x3200 .f32) (r : Fin 3200) (q : Fin 32) :
    k0_pay3 (F := Ideal) acc ewb (ix2 r q) = acc (ix2 r q) * ewb (ix2 (0 : Fin 1) r) := by
  unfold k0_pay3
  refine (mulf_apply _ _ (ix2 r q)).trans ?_
  refine congrArg₂ (· * ·) ?_ ?_
  · exact congrFun (shapeCast_self acc shapeCasts_S3200x32_S3200x32) (ix2 r q)
  · exact column_of_row_apply ewb shapeCasts_S1x3200_S3200 shapeCasts_S3200_S3200x1 broadcasts_S3200x1_S3200x32 r q

end Cert.KernelIdeal.GatherPieces

end
-- ==== Proof.Region0.lean ====
/-
  Region 0 (the gather): what the message array holds when the region has run.

  The grid is 500 edge blocks by 125 node blocks, the node block moving fastest. At a point (b, k) the body adds to the
  edge block's 3200 × 32 staging buffer the product of a 3200 × 800 matrix of selecting weights (edge r of the block
  against node j of node block k: one when the edge's source word is the node's number k·800 + j) with node block k of
  the features; the buffer is zeroed first at k = 0, and at k = 124 it is multiplied, row by row, by the edge weights
  and written back. So after node block k the buffer holds the shares of node blocks 0 … k (Cert.Spec.gUpTo), and what
  is written back for edge block b is Cert.Spec.msgsFn on that block's rows; the 500 edge blocks tile the array.
-/
import proofs.«413934_j61211873902725_1_alg».proof.Proof.IdealFrame
import proofs.«413934_j61211873902725_1_alg».proof.Proof.Spec
import proofs.«413934_j61211873902725_1_alg».proof.Proof.Region0Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Gather

open Cert.KernelIdeal Cert.KernelIdeal.Gen Cert.KernelIdeal.GenP Idealize.ShloMosaic.ValueIdx

variable (V : (c : Dev nD) → (b : Ref sig .tc) → Buf (Elt Ideal) ((c : Thread nD τ).loc b))

/-- The region's four arrays as it finds them, at their literal types. -/
abbrev xArr (c : Dev nD) : Cert.Spec.SX.Idx → EReal := V c main_arg0
abbrev srcArr (c : Dev nD) : Cert.Spec.SRow.Idx → BitVec 32 := V c main_v2
abbrev ewArr (c : Dev nD) : Cert.Spec.SRow.Idx → EReal := V c main_v6

/-! ## The blocks the body reads, as entries of the arrays -/

/-- The block indices of the four windows at point t: the node block t % 125 for the features, the edge block t / 125
    for the source words, the weights and the messages. -/
theorem idx_facts (t : Fin cfg0.N) :
    win0_0.index t 0 = t.val % 125 ∧ win0_0.index t 1 = 0
    ∧ win0_1.index t 0 = 0 ∧ win0_1.index t 1 = t.val / 125
    ∧ win0_2.index t 0 = 0 ∧ win0_2.index t 1 = t.val / 125
    ∧ win0_3.index t 0 = t.val / 125 ∧ win0_3.index t 1 = 0 :=
  ⟨congrFun (index0_0 t) 0, congrFun (index0_0 t) 1, congrFun (index0_1 t) 0, congrFun (index0_1 t) 1,
    congrFun (index0_2 t) 0, congrFun (index0_2 t) 1, congrFun (index0_3 t) 0, congrFun (index0_3 t) 1⟩

/-- The three input blocks at point t, at their literal types. -/
abbrev xblk (c : Dev nD) (t : Fin cfg0.N) : Vec Ideal S800x32 .f32 := iblk0 V c 0 t
abbrev sblk (c : Dev nD) (t : Fin cfg0.N) : Vec Ideal S1x3200 .i32 := iblk0 V c 1 t
abbrev wblk (c : Dev nD) (t : Fin cfg0.N) : Vec Ideal S1x3200 .f32 := iblk0 V c 2 t

/-- The feature block at a point of node block k holds the rows of the nodes of block k. -/
theorem xblk_apply (c : Dev nD) (t : Fin cfg0.N) (k : Fin 125) (hk : k.val = t.val % 125) (j : Fin 800) (q : Fin 32) :
    xblk V c t (ix2 j q) = xArr V c (ix2 (Cert.Spec.nodeRow k j) q) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t 0 * 800 + 1 * j.val = k.val * 800 + j.val; rw [e0, hk]; omega
  | ⟨1, _⟩ => show win0_0.index t 1 * 32 + 1 * q.val = q.val; rw [e1]; omega

/-- The source-word block at a point of edge block b holds the words of the edges of block b. -/
theorem sblk_apply (c : Dev nD) (t : Fin cfg0.N) (b : Fin 500) (hb : b.val = t.val / 125) (r : Fin 3200) :
    sblk V c t (ix2 (0 : Fin 1) r) = srcArr V c (ix2 (0 : Fin 1) (Cert.Spec.edgeRow b r)) := by
  obtain ⟨-, -, e0, e1, -⟩ := idx_facts t
  unfold sblk iblk0
  rw [View.read_apply]
  show V c main_v2 _ = V c main_v2 _
  congr 1
  funext a
  apply Fin.ext
  match a with
  | ⟨0, _⟩ => show win0_1.index t 0 * 1 + 1 * 0 = 0; rw [e0]
  | ⟨1, _⟩ => show win0_1.index t 1 * 3200 + 1 * r.val = b.val * 3200 + r.val; rw [e1, hb]; omega

/-- The weight block at a point of edge block b holds the weights of the edges of block b. -/
theorem wblk_apply (c : Dev nD) (t : Fin cfg0.N) (b : Fin 500) (hb : b.val = t.val / 125) (r : Fin 3200) :
    wblk V c t (ix2 (0 : Fin 1) r) = ewArr V c (ix2 (0 : Fin 1) (Cert.Spec.edgeRow b r)) := by
  obtain ⟨-, -, -, -, e0, e1, -⟩ := idx_facts t
  unfold wblk iblk0
  rw [View.read_apply]
  show V c main_v6 _ = V c main_v6 _
  congr 1
  funext a
  apply Fin.ext
  match a with
  | ⟨0, _⟩ => show win0_2.index t 0 * 1 + 1 * 0 = 0; rw [e0]
  | ⟨1, _⟩ => show win0_2.index t 1 * 3200 + 1 * r.val = b.val * 3200 + r.val; rw [e1, hb]; omega

/-! ## The running shares -/

/-- The first node block's share, added to zero, is the running share up to block 0. -/
theorem run_first (x : Cert.Spec.SX.Idx → EReal) (w : BitVec 32) (q : Fin 32) (k : Fin 125) (hk : k.val = 0) :
    0 + Cert.Spec.gpart x w q k = Cert.Spec.gUpTo x w q 0 := by
  obtain rfl : k = ⟨0, by norm_num⟩ := Fin.ext hk
  rw [zero_add]
  exact (Cert.Spec.upTo_zero (by norm_num) (Cert.Spec.gpart x w q)).symm

/-- A further node block's share, added to the running share, is the running share one block on. -/
theorem run_next (x : Cert.Spec.SX.Idx → EReal) (w : BitVec 32) (q : Fin 32) (n : ℕ) (k : Fin 125) (hk : k.val = n + 1) :
    Cert.Spec.gUpTo x w q n + Cert.Spec.gpart x w q k = Cert.Spec.gUpTo x w q (n + 1) := by
  have hn : n + 1 < 125 := by have := k.isLt; omega
  obtain rfl : k = ⟨n + 1, hn⟩ := Fin.ext hk
  exact (Cert.Spec.upTo_succ (Cert.Spec.gpart x w q) n hn).symm

/-- The running share up to the last node block is the whole sum. -/
theorem run_last (x : Cert.Spec.SX.Idx → EReal) (w : BitVec 32) (q : Fin 32) :
    Cert.Spec.gUpTo x w q 124 = ∑ k : Fin 125, Cert.Spec.gpart x w q k :=
  Cert.Spec.upTo_last (Cert.Spec.gpart x w q) 124 (by norm_num)

/-- Node block k's products at a point of node block k are the block's share of the selected row. -/
theorem share_eq (c : Dev nD) (t : Fin cfg0.N) (k : Fin 125) (hk : k.val = t.val % 125) (w : BitVec 32) (q : Fin 32) :
    (∑ j : Fin 800, Cert.Spec.hot w (BitVec.ofNat 32 (((grid0.coords t) 1).val * 800 + j.val)) * xblk V c t (ix2 j q))
      = Cert.Spec.gpart (xArr V c) w q k := by
  unfold Cert.Spec.gpart
  refine Finset.sum_congr rfl fun j _ => ?_
  rw [xblk_apply V c t k hk j q, coord0_1 t, ← hk]
  rfl

/-! ## What the staging buffer holds after each point -/

/-- After a point of the first node block: the share of node block 0. -/
theorem at_first (c : Dev nD) (t : Fin cfg0.N) (h0 : t.val % 125 = 0) (b : Fin 500) (hb : b.val = t.val / 125)
    (r : Fin 3200) (q : Fin 32) :
    outsAt0 V c t.val t.isLt (ix2 r q)
      = Cert.Spec.gUpTo (xArr V c) (srcArr V c (ix2 (0 : Fin 1) (Cert.Spec.edgeRow b r))) q 0 := by
  have h1 : ¬t.val % 125 = 124 := by omega
  rw [outsAt0_A V c t h0 h1]
  refine (congrFun (GatherPieces.out_A (F := Ideal) c (grid0.coords t) (ms0_0 t) (hs0_0 t) (ms0_1 t) (hs0_1 t)
    (ms0_2 t) (hs0_2 t) (ms0_3 t) (hs0_3 t) ((hcond0_0 t).mpr h0) (fun h => h1 ((hcond0_1 t).mp h))
    (xblk V c t) (sblk V c t) (wblk V c t)) (ix2 r q)).trans ?_
  refine (GatherPieces.step_apply (grid0.coords t) (sblk V c t) (xblk V c t) (k0_pay1 (F := Ideal)) r q).trans ?_
  rw [GatherPieces.zero_apply r q, sblk_apply V c t b hb r, share_eq V c t ⟨0, by norm_num⟩ h0.symm _ q]
  exact run_first _ _ _ _ rfl

/-- After a point of a middle node block n + 1: the shares up to that block, given those up to block n before it. -/
theorem at_middle (c : Dev nD) (t : Fin cfg0.N) (h0 : ¬t.val % 125 = 0) (h1 : ¬t.val % 125 = 124) (b : Fin 500)
    (hb : b.val = t.val / 125) (r : Fin 3200) (q : Fin 32) (n : ℕ) (hn : t.val % 125 = n + 1)
    (ih : outsAt0 V c (t.val - 1) (Nat.lt_of_le_of_lt (Nat.sub_le _ _) t.isLt) (ix2 r q)
      = Cert.Spec.gUpTo (xArr V c) (srcArr V c (ix2 (0 : Fin 1) (Cert.Spec.edgeRow b r))) q n) :
    outsAt0 V c t.val t.isLt (ix2 r q)
      = Cert.Spec.gUpTo (xArr V c) (srcArr V c (ix2 (0 : Fin 1) (Cert.Spec.edgeRow b r))) q (n + 1) := by
  have hk : n + 1 < 125 := by omega
  rw [outsAt0_B V c t h0 h1]
  refine (congrFun (GatherPieces.out_B (F := Ideal) c (grid0.coords t) (ms0_0 t) (hs0_0 t) (ms0_1 t) (hs0_1 t)
    (ms0_2 t) (hs0_2 t) (ms0_3 t) (hs0_3 t) (fun h => h0 ((hcond0_0 t).mp h)) (fun h => h1 ((hcond0_1 t).mp h))
    (xblk V c t) (sblk V c t) (wblk V c t)
    (outsAt0 V c (t.val - 1) (Nat.lt_of_le_of_lt (Nat.sub_le _ _) t.isLt))) (ix2 r q)).trans ?_
  refine (GatherPieces.step_apply (grid0.coords t) (sblk V c t) (xblk V c t)
    (outsAt0 V c (t.val - 1) (Nat.lt_of_le_of_lt (Nat.sub_le _ _) t.isLt)) r q).trans ?_
  rw [ih, sblk_apply V c t b hb r, share_eq V c t ⟨n + 1, hk⟩ hn.symm _ q]
  exact run_next _ _ _ n _ rfl

/-- After a point of the last node block: all the shares, times the edge's weight. -/
theorem at_last (c : Dev nD) (t : Fin cfg0.N) (h0 : ¬t.val % 125 = 0) (h1 : t.val % 125 = 124) (b : Fin 500)
    (hb : b.val = t.val / 125) (r : Fin 3200) (q : Fin 32)
    (ih : outsAt0 V c (t.val - 1) (Nat.lt_of_le_of_lt (Nat.sub_le _ _) t.isLt) (ix2 r q)
      = Cert.Spec.gUpTo (xArr V c) (srcArr V c (ix2 (0 : Fin 1) (Cert.Spec.edgeRow b r))) q 123) :
    outsAt0 V c t.val t.isLt (ix2 r q)
      = (∑ k : Fin 125, Cert.Spec.gpart (xArr V c) (srcArr V c (ix2 (0 : Fin 1) (Cert.Spec.edgeRow b r))) q k)
          * ewArr V c (ix2 (0 : Fin 1) (Cert.Spec.edgeRow b r)) := by
  rw [outsAt0_C V c t h0 h1]
  refine (congrFun (GatherPieces.out_C (F := Ideal) c (grid0.coords t) (ms0_0 t) (hs0_0 t) (ms0_1 t) (hs0_1 t)
    (ms0_2 t) (hs0_2 t) (ms0_3 t) (hs0_3 t) (fun h => h0 ((hcond0_0 t).mp h)) ((hcond0_1 t).mpr h1)
    (xblk V c t) (sblk V c t) (wblk V c t)
    (outsAt0 V c (t.val - 1) (Nat.lt_of_le_of_lt (Nat.sub_le _ _) t.isLt))) (ix2 r q)).trans ?_
  refine (GatherPieces.scale_apply (k0_pay2 (F := Ideal) (grid0.coords t) (sblk V c t) (xblk V c t)
    (outsAt0 V c (t.val - 1) (Nat.lt_of_le_of_lt (Nat.sub_le _ _) t.isLt))) (wblk V c t) r q).trans ?_
  rw [wblk_apply V c t b hb r]
  refine congrArg (· * ewArr V c (ix2 (0 : Fin 1) (Cert.Spec.edgeRow b r))) ?_
  refine (GatherPieces.step_apply (grid0.coords t) (sblk V c t) (xblk V c t)
    (outsAt0 V c (t.val - 1) (Nat.lt_of_le_of_lt (Nat.sub_le _ _) t.isLt)) r q).trans ?_
  rw [ih, sblk_apply V c t b hb r, share_eq V c t ⟨124, by norm_num⟩ h1.symm _ q]
  exact (run_next _ _ _ 123 _ rfl).trans (run_last _ _ _)

/-- THE INVARIANT. After point n, of edge block n / 125 and node block n % 125, entry (r, q) of the staging buffer is the
    running share of edge r's source word up to node block n % 125; after the block's last point, all the shares times
    the edge's weight. -/
theorem outsAt_eq (c : Dev nD) : ∀ (n : ℕ) (h : n < cfg0.N) (b : Fin 500) (hb : b.val = n / 125) (r : Fin 3200)
    (q : Fin 32), outsAt0 V c n h (ix2 r q)
      = if n % 125 = 124 then
          (∑ k : Fin 125, Cert.Spec.gpart (xArr V c) (srcArr V c (ix2 (0 : Fin 1) (Cert.Spec.edgeRow b r))) q k)
            * ewArr V c (ix2 (0 : Fin 1) (Cert.Spec.edgeRow b r))
        else Cert.Spec.gUpTo (xArr V c) (srcArr V c (ix2 (0 : Fin 1) (Cert.Spec.edgeRow b r))) q (n % 125)
  | 0, h, b, hb, r, q => by
    rw [if_neg (by norm_num)]
    exact at_first V c ⟨0, h⟩ rfl b hb r q
  | n + 1, h, b, hb, r, q => by
    have hN : n + 1 < 62500 := lt_of_lt_of_eq h N_0
    by_cases h0 : (n + 1) % 125 = 0
    · rw [if_neg (by omega), h0]
      exact at_first V c ⟨n + 1, h⟩ h0 b hb r q
    · have ih := outsAt_eq c n (Nat.lt_of_succ_lt h) b (by omega) r q
      rw [if_neg (by omega)] at ih
      by_cases h1 : (n + 1) % 125 = 124
      · rw [if_pos h1]
        rw [show n % 125 = 123 by omega] at ih
        exact at_last V c ⟨n + 1, h⟩ h0 h1 b hb r q ih
      · rw [if_neg h1, show (n + 1) % 125 = n % 125 + 1 by omega]
        exact at_middle V c ⟨n + 1, h⟩ h0 h1 b hb r q (n % 125) (by show (n + 1) % 125 = n % 125 + 1; omega) ih

/-! ## From the blocks to the array -/

/-- What the last point of edge block b leaves at entry y of the buffer is the message of edge y 0 of the block. -/
theorem out_entry (c : Dev nD) (t : Fin cfg0.N) (h1 : t.val % 125 = 124) (b : Fin 500) (hb : b.val = t.val / 125)
    (y : S3200x32.Idx) :
    outsAt0 V c t.val t.isLt y
      = Cert.Spec.msgsFn (xArr V c) (srcArr V c) (ewArr V c) (ix2 (Cert.Spec.edgeRow b (y 0)) (y 1)) := by
  obtain ⟨r, q, rfl⟩ : ∃ (r : Fin 3200) (q : Fin 32), y = ix2 r q := ⟨y 0, y 1, eq_ix2 y⟩
  rw [outsAt_eq V c t.val t.isLt b hb r q, if_pos h1]
  rfl

/-- What a point that writes back writes is its block of the messages. -/
theorem flushed_eq (c : Dev nD) (t : Fin cfg0.N) (hf : (cfg0.win 3).flush t = true) :
    (dat0 V c).flushed 3 t
      = ((cfg0.win 3).blk t).view.read (Elt Ideal) (Cert.Spec.msgsFn (xArr V c) (srcArr V c) (ewArr V c)) := by
  have h1 : t.val % 125 = 124 := (flush0_3 t).mp hf
  have hN : t.val < 62500 := lt_of_lt_of_eq t.isLt N_0
  obtain ⟨-, -, -, -, -, -, e0, e1⟩ := idx_facts t
  show (cfg0.win 3).cut (grid0.coords t) ((dat0 V c).after 3 t) = _
  rw [after0_3]
  funext y
  rw [View.read_apply]
  show outsAt0 V c t.val t.isLt ((cfg0.win 3).xinj (grid0.coords t) y)
    = Cert.Spec.msgsFn (xArr V c) (srcArr V c) (ewArr V c) (((cfg0.win 3).blk t).view.emb y)
  refine (out_entry V c t h1 ⟨t.val / 125, by omega⟩ rfl _).trans ?_
  congr 1
  funext a
  apply Fin.ext
  match a with
  | ⟨0, _⟩ => show t.val / 125 * 3200 + (y 0).val = win0_3.index t 0 * 3200 + 1 * (y 0).val; rw [e0]; omega
  | ⟨1, _⟩ => show (y 1).val = win0_3.index t 1 * 32 + 1 * (y 1).val; rw [e1]; omega

/-- An index of the message array lies in point t's output block iff each coordinate is in the block's range. -/
theorem mem_blk (t : Fin cfg0.N) (i : S1600000x32.Idx) :
    i ∈ ((cfg0.win 3).blk t).view.set ↔ ∀ a : Fin 2, win0_3.index t a * S3200x32.size a ≤ (i a).val ∧ (i a).val < win0_3.index t a * S3200x32.size a + S3200x32.size a := by
  show i ∈ ((View.whole main_v7).slice (win0_3.rect t)).set ↔ _
  rw [View.set_slice_whole, Rect.mem_set_unit]
  exact Iff.rfl

/-- Row i of the message array lies in the output block of the last point of its edge block. -/
theorem cover_point (i : S1600000x32.Idx) (t : Fin cfg0.N) (ht : t.val = (i 0).val / 3200 * 125 + 124) :
    i ∈ ((cfg0.win 3).blk t).view.set := by
  obtain ⟨-, -, -, -, -, -, e0, e1⟩ := idx_facts t
  have hi0 : (i 0).val < 1600000 := (i 0).isLt
  have hi1 : (i 1).val < 32 := (i 1).isLt
  rw [mem_blk]
  intro a
  match a with
  | ⟨0, _⟩ => show win0_3.index t 0 * 3200 ≤ (i 0).val ∧ (i 0).val < win0_3.index t 0 * 3200 + 3200; rw [e0, ht]; omega
  | ⟨1, _⟩ => show win0_3.index t 1 * 32 ≤ (i 1).val ∧ (i 1).val < win0_3.index t 1 * 32 + 32; rw [e1]; omega

/-- THE MESSAGE ARRAY after region 0: the selecting shape of the messages, of the arrays the region found. -/
theorem region0_value (c : Dev nD) :
    ((dat0 (F := Ideal) V c).arrAt 3 cfg0.N : Cert.Spec.SMsg.Idx → EReal)
      = Cert.Spec.msgsFn (xArr V c) (srcArr V c) (ewArr V c) :=
  (dat0 V c).arrAt_eq_of_cover 3 (Cert.Spec.msgsFn (xArr V c) (srcArr V c) (ewArr V c)) (flushed_eq V c) fun i => by
    have hi0 : (i 0).val < 1600000 := (i 0).isLt
    exact ⟨⟨(i 0).val / 3200 * 125 + 124, by rw [show cfg0.N = 62500 from N_0]; omega⟩,
      (flush0_3 _).mpr (by show ((i 0).val / 3200 * 125 + 124) % 125 = 124; omega), cover_point i _ rfl⟩

end Cert.KernelIdeal.Gather

end
-- ==== Proof.Region1Pieces.lean ====
/-
  Region 1 (the scatter), one grid point: what the body leaves in the node block's staging buffer, case by case, and the
  body's two stored values read at an entry over the extended reals.

  The stored values: a block of zeros; and the buffer plus the product of the selecting weights (node p of the point's
  node block against edge r of the edge block: the node's number compared with the edge's target word) with the edge
  block of the messages. At an entry (p, q) the product is the sum over the 3200 edges r of the block of the weight of
  (p, r) times the message (r, q).
-/
import proofs.«413934_j61211873902725_1_alg».proof.Proof.IdealFrame
import proofs.«413934_j61211873902725_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Predicate
import proofs.«413934_j61211873902725_1_alg».proof.Proof.LibPlainDot

set_option maxRecDepth 16384

noncomputable section

open scoped BigOperators
open Idealize.ShloMosaic Idealize.ShloMosaic.TcCoe Idealize.SL.Sem

namespace Cert.KernelIdeal.ScatterPieces

open Cert.KernelIdeal Cert.KernelIdeal.Gen Cert.KernelIdeal.GenP Idealize.ShloMosaic.ValueIdx

section AnyFloat
variable {F : FTy → Type} [FloatOps F]

private theorem hz : (![0, 0] : Fin 2 → Nat) = fun _ => 0 := funext fun a => by fin_cases a <;> rfl

/-- First edge block: the buffer is zeroed, then the product is added to the zeros. -/
theorem out_A (c : Dev nD) (i : grid1.Coords) (arg2 : Memref sig .tc .vmem S3200x32 .f32) (harg2 : arg2.IsWhole) (arg3 : Memref sig .tc .vmem S1x3200 .i32) (harg3 : arg3.IsWhole) (arg4 : Memref sig .tc .vmem S800x32 .f32) (harg4 : arg4.IsWhole) (hc0 : cond1_0 i)
    (x0 : Vec F S3200x32 .f32) (x1 : Vec F S1x3200 .i32) :
    out1_A_2 c i arg2 harg2 arg3 harg3 arg4 harg4 hc0 x0 x1 = k1_pay2 i x1 x0 (k1_pay1 (F := F)) := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S800x32) hz, View.readCov_unit_zero (S := S800x32) _ hz]
  simp only [View.readAt_eq_ld, harg2.read_unread, harg3.read_unread, View.ld_unit_zero (S := S3200x32) hz,
    View.ld_unit_zero (S := S1x3200) hz]

/-- A later edge block: the product is added to what the buffer held. -/
theorem out_B (c : Dev nD) (i : grid1.Coords) (arg2 : Memref sig .tc .vmem S3200x32 .f32) (harg2 : arg2.IsWhole) (arg3 : Memref sig .tc .vmem S1x3200 .i32) (harg3 : arg3.IsWhole) (arg4 : Memref sig .tc .vmem S800x32 .f32) (harg4 : arg4.IsWhole) (hc0 : ¬cond1_0 i)
    (x0 : Vec F S3200x32 .f32) (x1 : Vec F S1x3200 .i32) (xo2 : Vec F S800x32 .f32) :
    out1_B_2 c i arg2 harg2 arg3 harg3 arg4 harg4 hc0 x0 x1 xo2 = k1_pay2 i x1 x0 xo2 := by
  unfold out1_B_2
  rw [View.read_writes_eq_canon _ _ _ (cover1_B_2 c i arg2 harg2 arg3 harg3 arg4 harg4 hc0 x0 x1 xo2)]
  unfold kernelRun1_B
  dsimp only
  sl_unfold_words
  rw [View.canon_unit_zero (S := S800x32) hz]
  simp only [View.readAt_eq_ld, harg2.read_unread, harg3.read_unread, harg4.read_unread,
    View.ld_unit_zero (S := S3200x32) hz, View.ld_unit_zero (S := S1x3200) hz, View.ld_unit_zero (S := S800x32) hz]

end AnyFloat

/-- The zero block is zero at every entry. -/
theorem zero_apply (p : Fin 800) (q : Fin 32) : k1_pay1 (F := Ideal) (ix2 p q) = 0 := by
  unfold k1_pay1
  exact Ideal.ofBits_zero_f32

/-- The node's number as a word: the row coordinate plus the block's first number, 800 times the block's index.
    Words add and multiply as the integers modulo 2 ^ 32, so no bound on either is needed. -/
private theorem node_word (k p : ℕ) :
    BitVec.ofNat 32 p + BitVec.ofNat 32 k * 800#32 = BitVec.ofNat 32 (k * 800 + p) := by
  apply BitVec.eq_of_toNat_eq
  simp only [BitVec.toNat_add, BitVec.toNat_mul, BitVec.toNat_ofNat]
  omega

/-- The row counter at entry (p, r) is the row coordinate p. -/
private theorem rowIota_apply (h : S800x3200.Iotas .tc 32 [0]) (p : Fin 800) (r : Fin 3200) :
    iota .tc S800x3200 32 [0] h (ix2 p r) = BitVec.ofNat 32 p.val := by
  show BitVec.ofNat 32 (0 * 800 + p.val) = _
  rw [Nat.zero_mul, Nat.zero_add]

/-- A one-bit comparison of two words, widened to a word and read as a signed number, is one when the words are the
    same and zero otherwise. -/
private theorem weight_scalar (a b : BitVec 32) :
    (FloatOps.sitofp (F := Ideal) .f32 ((IntOp.cmpi .eq a b).setWidth 32) : EReal) = Cert.Spec.hot a b := by
  unfold Cert.Spec.hot
  by_cases h : a = b
  · rw [if_pos h, StableHlo.Predicate.cmpi_eq_iff.mpr h]
    show (((1#1 : BitVec 1).setWidth 32).toInt : ℝ) = (1 : EReal)
    have : ((1#1 : BitVec 1).setWidth 32).toInt = 1 := by decide
    rw [this]; simp
  · rw [if_neg h, eq_zero_of_ne_one (fun hc => h (StableHlo.Predicate.cmpi_eq_iff.mp hc))]
    show (((0#1 : BitVec 1).setWidth 32).toInt : ℝ) = (0 : EReal)
    have : ((0#1 : BitVec 1).setWidth 32).toInt = 0 := by decide
    rw [this]; simp

/-- The selecting weight at an entry: the comparison of the two words there, as one or zero. -/
private theorem weight_entry {s : Shape} (A B : IVec s 32) (h1 : 1 < 32) (h2 : FTy.bits .bf16 < FTy.bits .f32) (j : s.Idx) :
    (truncf .bf16 (sitofp (F := Ideal) .f32 (extui 32 (cmpi .eq A B) h1)) h2) j = Cert.Spec.hot (A j) (B j) :=
  weight_scalar (A j) (B j)

/-- The accumulating step at entry (p, q): the buffer's entry plus, over the edges r of the edge block, the selecting
    weight of node number (i 0)·800 + p against edge r's target word, times the message (r, q) of the block. -/
theorem step_apply (i : grid1.Coords) (tgtb : Vec Ideal S1x3200 .i32) (mb : Vec Ideal S3200x32 .f32)
    (acc : Vec Ideal S800x32 .f32) (p : Fin 800) (q : Fin 32) :
    k1_pay2 (F := Ideal) i tgtb mb acc (ix2 p q)
      = acc (ix2 p q) + ∑ r : Fin 3200,
          Cert.Spec.hot (BitVec.ofNat 32 ((i 0).val * 800 + p.val)) (tgtb (ix2 (0 : Fin 1) r)) * mb (ix2 r q) := by
  unfold k1_pay2
  dsimp only
  -- the sum of the buffer (cast to its own shape) and the product, read at the entry
  refine (addf_apply _ _ _).trans ?_
  refine congrArg₂ (· + ·) (congrFun (shapeCast_self acc shapeCasts_S800x32_S800x32) (ix2 p q)) ?_
  -- the product into zeros is the sum over the 3200 edges of the block
  refine (Cert.LibPlainDot.matmul_plain_apply 800 3200 32 none _ _ p q).trans ?_
  refine Finset.sum_congr rfl fun r _ => ?_
  refine congrArg₂ (· * ·) ?_ (congrFun (shapeCast_self mb shapeCasts_S3200x32_S3200x32) (ix2 r q))
  -- the weight of (p, r): the node's number against the target word of edge r
  refine (weight_entry _ _ natLt_1_32 bitsLt_bf16_f32 (ix2 p r)).trans ?_
  refine congrArg₂ Cert.Spec.hot ?_ ?_
  · refine Eq.trans ?_ (node_word (i 0).val p.val)
    exact congrArg (· + BitVec.ofNat 32 (i 0).val * 800#32) (rowIota_apply iota_S800x3200_d0_w32 p r)
  · exact (broadcastTo_1b_ab_apply _ broadcasts_S1x3200_S800x3200 p r).trans
      (congrFun (shapeCast_shapeCast tgtb shapeCasts_S1x3200_S3200 shapeCasts_S3200_S1x3200) (ix2 (0 : Fin 1) r))

end Cert.KernelIdeal.ScatterPieces

end
-- ==== Proof.Region1.lean ====
/-
  Region 1 (the scatter): what the result array holds when the region has run.

  The grid is 125 node blocks by 500 edge blocks, the edge block moving fastest. At a point (k, b) the body adds to the
  node block's 800 × 32 staging buffer the product of an 800 × 3200 matrix of selecting weights (node p of the block
  against edge r of edge block b: one when the edge's target word is the node's number k·800 + p) with edge block b of
  the messages; the buffer is zeroed first at b = 0 and written back after b = 499. So after edge block b the buffer
  holds the shares of edge blocks 0 … b (Cert.Spec.sUpTo), and what is written back for node block k is
  Cert.Spec.outFn on that block's rows; the 125 node blocks tile the array.
-/
import proofs.«413934_j61211873902725_1_alg».proof.Proof.IdealFrame
import proofs.«413934_j61211873902725_1_alg».proof.Proof.Spec
import proofs.«413934_j61211873902725_1_alg».proof.Proof.Region1Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Scatter

open Cert.KernelIdeal Cert.KernelIdeal.Gen Cert.KernelIdeal.GenP Idealize.ShloMosaic.ValueIdx

variable (V : (c : Dev nD) → (b : Ref sig .tc) → Buf (Elt Ideal) ((c : Thread nD τ).loc b))

/-- The region's two input arrays as it finds them, at their literal types. -/
abbrev msgArr (c : Dev nD) : Cert.Spec.SMsg.Idx → EReal := V c main_v7
abbrev tgtArr (c : Dev nD) : Cert.Spec.SRow.Idx → BitVec 32 := V c main_v5

/-- The message block and the target-word block a point reads, at their literal types. -/
private abbrev msgBlk (c : Dev nD) (t : Fin cfg1.N) : Vec Ideal S3200x32 .f32 := iblk1 V c 0 t
private abbrev tgtBlk (c : Dev nD) (t : Fin cfg1.N) : Vec Ideal S1x3200 .i32 := iblk1 V c 1 t

/-- The grid has 125 · 500 points. -/
private theorem lt_N (t : Fin cfg1.N) : t.val < 62500 := lt_of_lt_of_eq t.isLt (show cfg1.N = 62500 from N_1)

/-- Point t is node block t / 500, edge block t % 500: the edge block moves fastest. -/
private theorem coords_val (t : Fin cfg1.N) :
    ((grid1.coords t) 0).val = t.val / 500 ∧ ((grid1.coords t) 1).val = t.val % 500 := by
  have hN := lt_N t
  have s0 : grid1.stride 0 = 500 := by decide
  have s1 : grid1.stride 1 = 1 := by decide
  constructor
  · show t.val / grid1.stride 0 % 125 = t.val / 500
    rw [s0]; omega
  · show t.val / grid1.stride 1 % 500 = t.val % 500
    rw [s1]; omega

/-- The block each window is on at point t: messages and target words follow the edge block, the result the node block. -/
private theorem idx_facts (t : Fin cfg1.N) :
    win1_0.index t 0 = t.val % 500 ∧ win1_0.index t 1 = 0
    ∧ win1_1.index t 0 = 0 ∧ win1_1.index t 1 = t.val % 500
    ∧ win1_2.index t 0 = t.val / 500 ∧ win1_2.index t 1 = 0 := by
  obtain ⟨c0, c1⟩ := coords_val t
  have hN := lt_N t
  refine ⟨?_, rfl, rfl, ?_, ?_, rfl⟩
  · show (BitVec.ofNat 32 ((grid1.coords t) 1).val).toNat = t.val % 500
    rw [BitVec.toNat_ofNat, c1]; omega
  · show (BitVec.ofNat 32 ((grid1.coords t) 1).val).toNat = t.val % 500
    rw [BitVec.toNat_ofNat, c1]; omega
  · show (BitVec.ofNat 32 ((grid1.coords t) 0).val).toNat = t.val / 500
    rw [BitVec.toNat_ofNat, c0]; omega

/-- Row r of the message block at point t is message edgeRow b r, b the point's edge block. -/
private theorem msg_read (c : Dev nD) (t : Fin cfg1.N) (b : Fin 500) (hb : b.val = t.val % 500) (r : Fin 3200) (q : Fin 32) :
    msgBlk V c t (ix2 r q) = msgArr V c (ix2 (Cert.Spec.edgeRow b r) q) := by
  obtain ⟨e0, e1, -, -, -, -⟩ := idx_facts t
  show (iblk1 V c 0 t : Vec Ideal S3200x32 .f32) (ix2 r q) = V c main_v7 (ix2 (Cert.Spec.edgeRow b r) q)
  unfold iblk1
  rw [View.read_apply]
  show V c main_v7 _ = V c main_v7 _
  congr 1
  funext a
  apply Fin.ext
  match a with
  | ⟨0, _⟩ => show win1_0.index t 0 * 3200 + 1 * r.val = b.val * 3200 + r.val; rw [e0, hb]; omega
  | ⟨1, _⟩ => show win1_0.index t 1 * 32 + 1 * q.val = q.val; rw [e1]; omega

/-- Entry r of the target-word block at point t is the target word of edge edgeRow b r. -/
private theorem tgt_read (c : Dev nD) (t : Fin cfg1.N) (b : Fin 500) (hb : b.val = t.val % 500) (r : Fin 3200) :
    tgtBlk V c t (ix2 (0 : Fin 1) r) = tgtArr V c (ix2 (0 : Fin 1) (Cert.Spec.edgeRow b r)) := by
  obtain ⟨-, -, e2, e3, -, -⟩ := idx_facts t
  show (iblk1 V c 1 t : Vec Ideal S1x3200 .i32) (ix2 (0 : Fin 1) r) = V c main_v5 (ix2 (0 : Fin 1) (Cert.Spec.edgeRow b r))
  unfold iblk1
  rw [View.read_apply]
  show V c main_v5 _ = V c main_v5 _
  congr 1
  funext a
  apply Fin.ext
  match a with
  | ⟨0, _⟩ => show win1_1.index t 0 * 1 + 1 * (0 : Fin 1).val = (0 : Fin 1).val; rw [e2]; rfl
  | ⟨1, _⟩ => show win1_1.index t 1 * 3200 + 1 * r.val = b.val * 3200 + r.val; rw [e3, hb]; omega

/-- What a point adds at entry (p, q): its edge block's share of row nodeRow k p, k the point's node block. -/
private theorem step_sum (c : Dev nD) (t : Fin cfg1.N) (k : Fin 125) (hk : k.val = t.val / 500)
    (b : Fin 500) (hb : b.val = t.val % 500) (p : Fin 800) (q : Fin 32) :
    (∑ r : Fin 3200, Cert.Spec.hot (BitVec.ofNat 32 (((grid1.coords t) 0).val * 800 + p.val))
        (tgtBlk V c t (ix2 (0 : Fin 1) r)) * msgBlk V c t (ix2 r q))
      = Cert.Spec.spart (msgArr V c) (tgtArr V c) (Cert.Spec.nodeRow k p) q b := by
  obtain ⟨c0, -⟩ := coords_val t
  unfold Cert.Spec.spart
  refine Finset.sum_congr rfl fun r _ => ?_
  rw [msg_read V c t b hb r q, tgt_read V c t b hb r, c0, ← hk]
  rfl

/-- At a node block's first edge block the buffer holds that edge block's share alone. -/
private theorem first_block (c : Dev nD) (t : Fin cfg1.N) (h0 : t.val % 500 = 0) (k : Fin 125) (hk : k.val = t.val / 500)
    (p : Fin 800) (q : Fin 32) :
    (outsAt1 V c t.val t.isLt : Vec Ideal S800x32 .f32) (ix2 p q)
      = Cert.Spec.sUpTo (msgArr V c) (tgtArr V c) (Cert.Spec.nodeRow k p) q (t.val % 500) := by
  rw [outsAt1_A V c t h0]
  refine (congrFun (Cert.KernelIdeal.ScatterPieces.out_A (F := Ideal) c (grid1.coords t) (ms1_0 t) (hs1_0 t) (ms1_1 t) (hs1_1 t)
    (ms1_2 t) (hs1_2 t) ((hcond1_0 t).mpr h0) (iblk1 V c 0 t) (iblk1 V c 1 t)) (ix2 p q)).trans ?_
  refine (Cert.KernelIdeal.ScatterPieces.step_apply (grid1.coords t) (tgtBlk V c t) (msgBlk V c t) (k1_pay1 (F := Ideal)) p q).trans ?_
  rw [Cert.KernelIdeal.ScatterPieces.zero_apply, zero_add, step_sum V c t k hk ⟨0, by norm_num⟩ h0.symm p q, h0]
  exact (Cert.Spec.upTo_zero (by norm_num) (Cert.Spec.spart (msgArr V c) (tgtArr V c) (Cert.Spec.nodeRow k p) q)).symm

/-- THE INVARIANT: after point n the buffer holds, at entry (p, q), the shares of edge blocks 0 … n % 500 of row
    nodeRow (n / 500) p. By induction on the point: a first edge block starts the sum, a later one adds its share. -/
private theorem outsAt_eq (c : Dev nD) : ∀ (n : ℕ) (h : n < cfg1.N) (k : Fin 125) (hk : k.val = n / 500) (p : Fin 800) (q : Fin 32),
    (outsAt1 V c n h : Vec Ideal S800x32 .f32) (ix2 p q)
      = Cert.Spec.sUpTo (msgArr V c) (tgtArr V c) (Cert.Spec.nodeRow k p) q (n % 500) := by
  intro n
  induction n with
  | zero =>
    intro h k hk p q
    exact first_block V c ⟨0, h⟩ (Nat.zero_mod _) k hk p q
  | succ n ih =>
    intro h k hk p q
    by_cases h0 : (n + 1) % 500 = 0
    · exact first_block V c ⟨n + 1, h⟩ h0 k hk p q
    · have hB : ¬(⟨n + 1, h⟩ : Fin cfg1.N).val % 500 = 0 := h0
      have hlt : n % 500 + 1 < 500 := by omega
      have hb : (⟨n % 500 + 1, hlt⟩ : Fin 500).val = (⟨n + 1, h⟩ : Fin cfg1.N).val % 500 := by
        show n % 500 + 1 = (n + 1) % 500; omega
      rw [outsAt1_B V c ⟨n + 1, h⟩ hB]
      refine (congrFun (Cert.KernelIdeal.ScatterPieces.out_B (F := Ideal) c (grid1.coords ⟨n + 1, h⟩) (ms1_0 ⟨n + 1, h⟩) (hs1_0 ⟨n + 1, h⟩)
        (ms1_1 ⟨n + 1, h⟩) (hs1_1 ⟨n + 1, h⟩) (ms1_2 ⟨n + 1, h⟩) (hs1_2 ⟨n + 1, h⟩) (fun hc => hB ((hcond1_0 ⟨n + 1, h⟩).mp hc))
        (iblk1 V c 0 ⟨n + 1, h⟩) (iblk1 V c 1 ⟨n + 1, h⟩) (outsAt1 V c n (Nat.lt_of_succ_lt h))) (ix2 p q)).trans ?_
      refine (Cert.KernelIdeal.ScatterPieces.step_apply (grid1.coords ⟨n + 1, h⟩) (tgtBlk V c ⟨n + 1, h⟩) (msgBlk V c ⟨n + 1, h⟩)
        (outsAt1 V c n (Nat.lt_of_succ_lt h)) p q).trans ?_
      rw [ih (Nat.lt_of_succ_lt h) k (by omega) p q, step_sum V c ⟨n + 1, h⟩ k hk ⟨n % 500 + 1, hlt⟩ hb p q,
        show (n + 1) % 500 = n % 500 + 1 from by omega]
      exact (Cert.Spec.upTo_succ (Cert.Spec.spart (msgArr V c) (tgtArr V c) (Cert.Spec.nodeRow k p) q) (n % 500) hlt).symm

/-- WHAT A NODE BLOCK'S LAST POINT WRITES BACK: the result on the block's rows. -/
private theorem flushed_eq (c : Dev nD) (t : Fin cfg1.N) (hf : (cfg1.win 2).flush t = true) :
    (dat1 V c).flushed 2 t
      = ((cfg1.win 2).blk t).view.read (Elt Ideal) (Cert.Spec.outFn (msgArr V c) (tgtArr V c)) := by
  have h499 : t.val % 500 = 499 := (flush1_2 t).mp hf
  have hN := lt_N t
  have hk : t.val / 500 < 125 := by omega
  obtain ⟨-, -, -, -, e4, e5⟩ := idx_facts t
  show (cfg1.win 2).cut (grid1.coords t) ((dat1 V c).after 2 t) = _
  rw [after1_2]
  funext j
  obtain ⟨p, q, rfl⟩ : ∃ (p : Fin 800) (q : Fin 32), j = ix2 p q := ⟨j 0, j 1, eq_ix2 (n0 := 800) (n1 := 32) j⟩
  have hemb : ((cfg1.win 2).blk t).view.emb (ix2 p q) = ix2 (Cert.Spec.nodeRow ⟨t.val / 500, hk⟩ p) q := by
    funext a; apply Fin.ext
    match a with
    | ⟨0, _⟩ => show win1_2.index t 0 * 800 + 1 * p.val = t.val / 500 * 800 + p.val; rw [e4]; omega
    | ⟨1, _⟩ => show win1_2.index t 1 * 32 + 1 * q.val = q.val; rw [e5]; omega
  show (outsAt1 V c t.val t.isLt : Vec Ideal S800x32 .f32) (ix2 p q)
    = Cert.Spec.outFn (msgArr V c) (tgtArr V c) (((cfg1.win 2).blk t).view.emb (ix2 p q))
  rw [hemb, outsAt_eq V c t.val t.isLt ⟨t.val / 500, hk⟩ rfl p q, h499]
  exact Cert.Spec.upTo_last (Cert.Spec.spart (msgArr V c) (tgtArr V c) (Cert.Spec.nodeRow ⟨t.val / 500, hk⟩ p) q) 499 (by norm_num)

/-- An index of the result array is in point t's block iff each coordinate is in the block's range on its axis. -/
private theorem mem_blk (t : Fin cfg1.N) (i : Cert.Spec.SX.Idx) :
    i ∈ ((cfg1.win 2).blk t).view.set
      ↔ ∀ a : Fin 2, win1_2.index t a * S800x32.size a ≤ (i a).val ∧ (i a).val < win1_2.index t a * S800x32.size a + S800x32.size a := by
  show i ∈ ((View.whole main_v8).slice (win1_2.rect t)).set ↔ _
  rw [View.set_slice_whole, Rect.mem_set_unit]
  exact Iff.rfl

/-- The 125 node blocks tile the rows: row n is written back by the last point of node block n / 800. -/
private theorem cover (i : Cert.Spec.SX.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hlt : (i 0).val / 800 * 500 + 499 < cfg1.N := by rw [show cfg1.N = 62500 from N_1]; omega
  obtain ⟨-, -, -, -, e4, e5⟩ := idx_facts ⟨(i 0).val / 800 * 500 + 499, hlt⟩
  refine ⟨⟨(i 0).val / 800 * 500 + 499, hlt⟩, (flush1_2 _).mpr (by show ((i 0).val / 800 * 500 + 499) % 500 = 499; omega), ?_⟩
  rw [mem_blk]
  intro a
  match a with
  | ⟨0, _⟩ =>
    show win1_2.index ⟨(i 0).val / 800 * 500 + 499, hlt⟩ 0 * 800 ≤ (i 0).val
      ∧ (i 0).val < win1_2.index ⟨(i 0).val / 800 * 500 + 499, hlt⟩ 0 * 800 + 800
    rw [e4]; dsimp only; omega
  | ⟨1, _⟩ =>
    show win1_2.index ⟨(i 0).val / 800 * 500 + 499, hlt⟩ 1 * 32 ≤ (i 1).val
      ∧ (i 1).val < win1_2.index ⟨(i 0).val / 800 * 500 + 499, hlt⟩ 1 * 32 + 32
    rw [e5]; omega

/-- THE RESULT ARRAY after region 1: the selecting shape of the result, of the arrays the region found. -/
theorem region1_value (c : Dev nD) :
    ((dat1 (F := Ideal) V c).arrAt 2 cfg1.N : Cert.Spec.SX.Idx → EReal)
      = Cert.Spec.outFn (msgArr V c) (tgtArr V c) :=
  (dat1 (F := Ideal) V c).arrAt_eq_of_cover 2 (Cert.Spec.outFn (msgArr V c) (tgtArr V c)) (flushed_eq V c) cover

end Cert.KernelIdeal.Scatter

end
-- ==== Proof.KernelValue.lean ====
/-
  The kernel's result as a function of its three arguments.

  Before region 0 the host cuts the index pair into its source row and its target row (a slice, then two changes of
  shape that keep the row-major position) and lays the weight vector out as a row. Region 0 then leaves the message
  array at the selecting shape of the messages (Region0), region 1 leaves the result array at the selecting shape of the
  result of that message array and the target row (Region1), and when every source word is a row number the selecting
  shape is the indexed shape (Spec): row n of the result is the sum, over the edges whose target word is n, of feature
  row src e times the weight of e.
-/
import proofs.«413934_j61211873902725_1_alg».proof.Proof.IdealFrame
import proofs.«413934_j61211873902725_1_alg».proof.Proof.Spec
import proofs.«413934_j61211873902725_1_alg».proof.Proof.Region0
import proofs.«413934_j61211873902725_1_alg».proof.Proof.Region1
import Idealize.ShloMosaic.Lib.Pipeline.Value
import Idealize.ShloMosaic.Lib.StableHlo.Run
import Idealize.ShloMosaic.Lib.ValueIdx

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.GenP Idealize.ShloMosaic.ValueIdx

section Layout
variable {α : Type}

/-- A vector laid out as a row keeps its entries. -/
theorem row_of_vec (v : Cert.Spec.SVec.Idx → α) (h : Cert.Spec.SVec.ShapeCasts Cert.Spec.SRow) (e : Fin 1600000) :
    shapeCast Cert.Spec.SRow v h (ix2 (0 : Fin 1) e) = v (ix1 e) :=
  shapeCast_apply v h _ _ (by
    rw [Shape.rowMajor_val_one, Shape.rowMajor_val_two]
    show e.val = 0 * 1600000 + e.val
    omega)

/-- A row laid out as a vector keeps its entries. -/
theorem vec_of_row (v : Cert.Spec.SRow.Idx → α) (h : Cert.Spec.SRow.ShapeCasts Cert.Spec.SVec) (e : Fin 1600000) :
    shapeCast Cert.Spec.SVec v h (ix1 e) = v (ix2 (0 : Fin 1) e) :=
  shapeCast_apply v h _ _ (by
    rw [Shape.rowMajor_val_one, Shape.rowMajor_val_two]
    show 0 * 1600000 + e.val = e.val
    omega)

/-- Row k of the index pair, cut out as a one-row array. -/
theorem slice_row (a : Cert.Spec.SPair.Idx → α) (k : Fin 2) (h : Cert.Spec.SPair.Slices ![k.val, 0] Cert.Spec.SRow)
    (e : Fin 1600000) :
    extractStridedSlice Cert.Spec.SRow ![k.val, 0] a h (ix2 (0 : Fin 1) e) = a (ix2 k e) :=
  extractStridedSlice_apply _ a h _ _ (fun b => by
    match b with
    | ⟨0, _⟩ => show k.val = k.val + 0; omega
    | ⟨1, _⟩ => show e.val = 0 + e.val; omega)

end Layout

variable (m : (ℓ : Loc nD τ sig) → Buf (Elt Ideal) ℓ) (ρ : Dev nD → PrngReg)

/-- The three arguments as launched, at their literal types. -/
abbrev xIn (c : Dev nD) : Cert.Spec.SX.Idx → EReal := m ((c : Thread nD τ).loc main_arg0)
abbrev aIn (c : Dev nD) : Cert.Spec.SPair.Idx → BitVec 32 := m ((c : Thread nD τ).loc main_arg1)
abbrev ewIn (c : Dev nD) : Cert.Spec.SVec.Idx → EReal := m ((c : Thread nD τ).loc main_arg2)

/-- Region 0 finds the features as launched. -/
theorem entry_x (c : Dev nD) : Gather.xArr (V1 m ρ) c = xIn m c := by
  show StableHlo.after hostOps0 (W0 m ρ c) (Proc.devRef .tc main_arg0) = _
  after_results <;> rfl

/-- Region 0 finds, as its source row, row 0 of the index pair. -/
theorem entry_src (c : Dev nD) (e : Fin 1600000) : Gather.srcArr (V1 m ρ) c (ix2 (0 : Fin 1) e) = aIn m c (ix2 (0 : Fin 2) e) := by
  have h : Gather.srcArr (V1 m ρ) c
      = shapeCast S1x1600000 (shapeCast S1600000 (extractStridedSlice S1x1600000 ![0, 0] (aIn m c) slices_S2x1600000_S1x1600000_0_0)
          shapeCasts_S1x1600000_S1600000) shapeCasts_S1600000_S1x1600000 := by
    show StableHlo.after hostOps0 (W0 m ρ c) (Proc.devRef .tc main_v2) = _
    after_results <;> rfl
  rw [h, row_of_vec, vec_of_row]
  exact slice_row (aIn m c) 0 _ e

/-- The target row (which region 0 does not touch) is row 1 of the index pair. -/
theorem entry_tgt (c : Dev nD) (e : Fin 1600000) :
    (V1 m ρ c main_v5 : Cert.Spec.SRow.Idx → BitVec 32) (ix2 (0 : Fin 1) e) = aIn m c (ix2 (1 : Fin 2) e) := by
  have h : (V1 m ρ c main_v5 : Cert.Spec.SRow.Idx → BitVec 32)
      = shapeCast S1x1600000 (shapeCast S1600000 (extractStridedSlice S1x1600000 ![1, 0] (aIn m c) slices_S2x1600000_S1x1600000_1_0)
          shapeCasts_S1x1600000_S1600000) shapeCasts_S1600000_S1x1600000 := by
    show StableHlo.after hostOps0 (W0 m ρ c) (Proc.devRef .tc main_v5) = _
    after_results <;> rfl
  rw [h, row_of_vec, vec_of_row]
  exact slice_row (aIn m c) 1 _ e

/-- Region 0 finds, as its weight row, the weight vector laid out as a row. -/
theorem entry_ew (c : Dev nD) (e : Fin 1600000) : Gather.ewArr (V1 m ρ) c (ix2 (0 : Fin 1) e) = ewIn m c (ix1 e) := by
  have h : Gather.ewArr (V1 m ρ) c = shapeCast S1x1600000 (ewIn m c) shapeCasts_S1600000_S1x1600000 := by
    show StableHlo.after hostOps0 (W0 m ρ c) (Proc.devRef .tc main_v6) = _
    after_results <;> rfl
  rw [h, row_of_vec]

/-- THE RESULT: when every source word is a row number, the result buffer after the run holds the indexed shape of the
    result of the three arguments as launched. -/
theorem result_eq (c : Dev nD)
    (hr : ∀ e : Fin 1600000, 0 ≤ (aIn m c (ix2 (0 : Fin 2) e)).toInt ∧ (aIn m c (ix2 (0 : Fin 2) e)).toInt < 100000) :
    (W3 m ρ c (Proc.devRef .tc main_v8) : Cert.Spec.SX.Idx → EReal) = Cert.Spec.target (xIn m c) (aIn m c) (ewIn m c) := by
  have h8 : (W3 m ρ c (Proc.devRef .tc main_v8) : Cert.Spec.SX.Idx → EReal)
      = Cert.Spec.outFn (Scatter.msgArr (V2 m ρ) c) (Scatter.tgtArr (V2 m ρ) c) :=
    (W3_arr m ρ c 2).trans (Scatter.region1_value (V2 m ρ) c)
  have h7 : Scatter.msgArr (V2 m ρ) c
      = Cert.Spec.msgsFn (Gather.xArr (V1 m ρ) c) (Gather.srcArr (V1 m ρ) c) (Gather.ewArr (V1 m ρ) c) :=
    (W2_arr m ρ c 3).trans (Gather.region0_value (V1 m ρ) c)
  have h5 : Scatter.tgtArr (V2 m ρ) c = (V1 m ρ c main_v5 : Cert.Spec.SRow.Idx → BitVec 32) :=
    W2_of_ne m ρ c main_v5 (by decide)
  rw [h8, h7, h5, entry_x]
  exact Cert.Spec.select_eq_target (xIn m c) (aIn m c) (ewIn m c) _ _ _ (entry_src m ρ c) (entry_tgt m ρ c) (entry_ew m ρ c) hr

end Cert.KernelIdeal.Result

end
-- ==== Proof.LibGatherRows.lean ====
/-
  Rows of a table gathered by a column of start indices, read at one entry. For a table of K rows and D columns and
  N start indices kept as an N × 1 column, with the table's row axis collapsed and start-indexed, its column axis the
  result's offset axis, no batching axes and the index vector on axis 1 (what indexing a matrix by a vector of row
  numbers lowers to), entry (n, j) of the result is the table's entry (r, j), where r is start index n read as a signed
  integer and clamped into 0 … K - 1.
-/
import Idealize.ShloMosaic.Lib.ValueIdx

namespace Cert.LibGatherRows

open Idealize.ShloMosaic Idealize.ShloMosaic.ValueIdx

/-- The row gather at entry (n, j): the table at the clamped start index of position n, column j. -/
theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a
  -- no operand axis is a batching axis, so the batching coordinate vanishes on both axes
  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>
    -- the row axis: collapsed (offset coordinate 0, slice size 1) and start-indexed, so the operand index is the
    -- start index of position n clamped to K - 1
    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc
    -- the result's only batch axis is axis 0: a batch axis is not the offset axis 1
    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega
    -- the start index of result entry (n, j) is read at (n, 0): the batch coordinate n on axis 0, component 0 on
    -- the index vector's axis 1
    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the column axis: not start-indexed (start 0) and the one kept axis, read through the result's offset axis 1,
    -- so the operand index is j
    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.RefValue.lean ====
/-
  The reference's result read at an entry.

  The reference cuts the index pair into its source and target vectors, adds 100000 to a negative source word (so that
  a negative word counts from the end), gathers the feature rows at the resulting words (a word outside 0 … 99999 is
  kept inside by the gather), multiplies each gathered row by the edge's weight, and adds every product row into the
  row its target word names, starting from zeros (a target word that names no row adds nowhere). When every source word
  is a row number the first two steps change nothing, so entry (n, c) of the result is 0 plus the sum, over the edges
  whose target word is n, of the feature (src e, c) times the weight of e: the indexed shape of Cert.Spec.
-/
import proofs.«413934_j61211873902725_1_alg».proof.ReferenceIdeal
import proofs.«413934_j61211873902725_1_alg».proof.Proof.Gen.ReferenceIdeal
import proofs.«413934_j61211873902725_1_alg».proof.Proof.Spec
import proofs.«413934_j61211873902725_1_alg».proof.Proof.LibGatherRows
import proofs.«413934_j61211873902725_1_alg».proof.Proof.LibScatterRows
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators
open Idealize.ShloMosaic Idealize.ShloMosaic.ValueIdx

namespace Cert.ReferenceIdeal.RefValue

open Cert.ReferenceIdeal Cert.ReferenceIdeal.Facts₀ Cert.ReferenceIdeal.Facts

/-- Row 0 of the index pair, cut out and flattened, read at edge e. -/
private theorem row0_apply (a : IVec S2x1600000 32) (hs : S2x1600000.Slices ![0, 0] S1x1600000)
    (hc : S1x1600000.ShapeCasts S1600000) (e : Fin 1600000) :
    shapeCast S1600000 (extractStridedSlice S1x1600000 ![0, 0] a hs) hc (ix1 e) = a (ix2 (0 : Fin 2) e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ a hs (ix2 (0 : Fin 1) e) (ix2 (0 : Fin 2) e) fun b => ?_
    match b with
    | ⟨0, _⟩ => rfl
    | ⟨1, _⟩ => exact (Nat.zero_add _).symm

/-- Row 1 of the index pair, cut out and flattened, read at edge e. -/
private theorem row1_apply (a : IVec S2x1600000 32) (hs : S2x1600000.Slices ![1, 0] S1x1600000)
    (hc : S1x1600000.ShapeCasts S1600000) (e : Fin 1600000) :
    shapeCast S1600000 (extractStridedSlice S1x1600000 ![1, 0] a hs) hc (ix1 e) = a (ix2 (1 : Fin 2) e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ a hs (ix2 (0 : Fin 1) e) (ix2 (1 : Fin 2) e) fun b => ?_
    match b with
    | ⟨0, _⟩ => rfl
    | ⟨1, _⟩ => exact (Nat.zero_add _).symm

/-- A vector kept as a column, read at (e, 0). -/
private theorem col_apply {α : Type} (h : S1600000.BroadcastsInDim S1600000x1 (![0] : Fin 1 → Fin S1600000x1.rank))
    (v : S1600000.Idx → α) (e : Fin 1600000) :
    broadcastInDim S1600000x1 ![0] h v (ix2 e (0 : Fin 1)) = v (ix1 e) := by
  refine broadcastInDim_apply _ h v _ (ix1 e) fun b => ?_
  match b with
  | ⟨0, _⟩ =>
    rw [if_neg (by show ¬ (1600000 : ℕ) = 1; omega)]
    rfl

/-- A column spread over 32 columns, read at (e, c). -/
private theorem spread_apply {α : Type}
    (h : S1600000x1.BroadcastsInDim S1600000x32 (![0, 1] : Fin 2 → Fin S1600000x32.rank))
    (v : S1600000x1.Idx → α) (e : Fin 1600000) (c : Fin 32) :
    broadcastInDim S1600000x32 ![0, 1] h v (ix2 e c) = v (ix2 e (0 : Fin 1)) := by
  refine broadcastInDim_apply _ h v _ (ix2 e (0 : Fin 1)) fun b => ?_
  match b with
  | ⟨0, _⟩ =>
    rw [if_neg (by show ¬ (1600000 : ℕ) = 1; omega)]
    rfl
  | ⟨1, _⟩ =>
    rw [if_pos (by rfl)]
    rfl

/-- A scalar spread over a vector is that scalar at every position. -/
private theorem scalar_vec_apply {α : Type} (h : S_.BroadcastsInDim S1600000 (![] : Fin 0 → Fin S1600000.rank))
    (z : S_.Idx → α) (i : S1600000.Idx) :
    broadcastInDim S1600000 ![] h z i = z ix0 :=
  broadcastInDim_apply _ h z i ix0 (fun b => b.elim0)

/-- A word that is not negative does not compare below zero. -/
private theorem cmpi_slt_zero (w : BitVec 32) (h : 0 ≤ w.toInt) : IntOp.cmpi .slt w 0#32 = 0#1 := by
  have hf : w.slt 0#32 = false := by
    rw [BitVec.slt_eq_decide]
    simp
    exact h
  show BitVec.ofBool (w.slt 0#32) = 0#1
  rw [hf]
  rfl

/-- The reference's result as a term of its three arguments: its host operations composed, in @main's order. -/
def refOut (x : FVec Ideal S100000x32 .f32) (a : IVec S2x1600000 32) (ew : FVec Ideal S1600000 .f32) :
    FVec Ideal S100000x32 .f32 :=
  let v1 : IVec S1600000 32 := shapeCast S1600000 (extractStridedSlice S1x1600000 ![0, 0] a slices_S2x1600000_S1x1600000_0_0) shapeCasts_S1x1600000_S1600000
  let v3 : IVec S1600000 32 := shapeCast S1600000 (extractStridedSlice S1x1600000 ![1, 0] a slices_S2x1600000_S1x1600000_1_0) shapeCasts_S1x1600000_S1600000
  let v4 : IVec S1600000 32 := broadcastInDim S1600000 ![] bcast_S_S1600000 (constantI S_ 32 0#32)
  let v5 : IVec S1600000 1 := cmpi .slt v1 v4
  let v6 : IVec S1600000 32 := broadcastInDim S1600000 ![] bcast_S_S1600000 (constantI S_ 32 100000#32)
  let v7 : IVec S1600000 32 := addi v1 v6
  let v8 : IVec S1600000 32 := select v5 v7 v1
  let v9 : IVec S1600000x1 32 := broadcastInDim S1600000x1 ![0] bcast_S1600000_S1600000x1_0 v8
  let v10 : FVec Ideal S1600000x32 .f32 := Host.gather gather_S100000x32_S1600000x1_S1600000x32_1_0_n_n_0_1_132 x v9
  let v11 : FVec Ideal S1600000x1 .f32 := broadcastInDim S1600000x1 ![0] bcast_S1600000_S1600000x1_0 ew
  let v12 : FVec Ideal S1600000x32 .f32 := broadcastInDim S1600000x32 ![0, 1] bcast_S1600000x1_S1600000x32_0_1 v11
  let v13 : FVec Ideal S1600000x32 .f32 := mulf v10 v12
  let v14 : FVec Ideal S100000x32 .f32 := broadcastInDim S100000x32 ![] bcast_S_S100000x32 (constant S_ .f32 0x00000000#32)
  let v15 : IVec S1600000x1 32 := broadcastInDim S1600000x1 ![0] bcast_S1600000_S1600000x1_0 v3
  Host.scatterAdd scatter_S100000x32_S1600000x1_S1600000x32_1_0_0_1 v14 v15 v13

/-- The start index of edge e: the source word, moved up by 100000 when negative; a row number stays. -/
private theorem start_apply (a : IVec S2x1600000 32) (e : Fin 1600000)
    (h0 : 0 ≤ (a (ix2 (0 : Fin 2) e)).toInt) :
    select
        (cmpi .slt
          (shapeCast S1600000 (extractStridedSlice S1x1600000 ![0, 0] a slices_S2x1600000_S1x1600000_0_0) shapeCasts_S1x1600000_S1600000)
          (broadcastInDim S1600000 ![] bcast_S_S1600000 (constantI S_ 32 0#32)))
        (addi
          (shapeCast S1600000 (extractStridedSlice S1x1600000 ![0, 0] a slices_S2x1600000_S1x1600000_0_0) shapeCasts_S1x1600000_S1600000)
          (broadcastInDim S1600000 ![] bcast_S_S1600000 (constantI S_ 32 100000#32)))
        (shapeCast S1600000 (extractStridedSlice S1x1600000 ![0, 0] a slices_S2x1600000_S1x1600000_0_0) shapeCasts_S1x1600000_S1600000)
        (ix1 e)
      = a (ix2 (0 : Fin 2) e) := by
  rw [select_apply]
  have hc : cmpi .slt
          (shapeCast S1600000 (extractStridedSlice S1x1600000 ![0, 0] a slices_S2x1600000_S1x1600000_0_0) shapeCasts_S1x1600000_S1600000)
          (broadcastInDim S1600000 ![] bcast_S_S1600000 (constantI S_ 32 0#32)) (ix1 e) = 0#1 := by
    show IntOp.cmpi .slt _ _ = 0#1
    rw [row0_apply, scalar_vec_apply]
    exact cmpi_slt_zero _ h0
  rw [hc, select_zero, row0_apply]

/-- THE REFERENCE'S RESULT: when every source word is a row number, it is the indexed shape of the result. -/
theorem refOut_eq_target (x : FVec Ideal S100000x32 .f32) (a : IVec S2x1600000 32) (ew : FVec Ideal S1600000 .f32)
    (hr : ∀ e : Fin 1600000, 0 ≤ (a (ix2 (0 : Fin 2) e)).toInt ∧ (a (ix2 (0 : Fin 2) e)).toInt < 100000) :
    (refOut x a ew : Cert.Spec.SX.Idx → EReal) = Cert.Spec.target x a ew := by
  funext i
  obtain ⟨n, c, rfl⟩ : ∃ (n : Fin 100000) (c : Fin 32), i = ix2 n c := ⟨i 0, i 1, eq_ix2 i⟩
  show Host.scatterAdd _ _ _ _ (ix2 n c) = _
  refine (Cert.LibScatterRows.scatterAdd_rows_apply _ rfl rfl rfl rfl _ _ _ n c).trans ?_
  rw [Cert.LibScatterRows.broadcast_scalar_apply, constant_apply, Ideal.ofBits_zero_f32, zero_add]
  show _ = ∑ e : Fin 1600000,
    if (a (ix2 (1 : Fin 2) e)).toInt = (n.val : ℤ) then x (ix2 (Cert.Spec.rowOf (a (ix2 (0 : Fin 2) e))) c) * ew (ix1 e) else 0
  refine Finset.sum_congr rfl fun e _ => ?_
  rw [col_apply, row1_apply]
  refine if_congr Iff.rfl ?_ rfl
  rw [mulf_apply, spread_apply, col_apply]
  refine congrArg (· * ew (ix1 e)) ?_
  refine (Cert.LibGatherRows.gather_rows_apply _ rfl rfl rfl rfl rfl (by norm_num) x _ e c).trans ?_
  refine congrArg (fun r => x (ix2 r c)) (Fin.ext ?_)
  show min (_ : BitVec 32).toInt.toNat (100000 - 1) = min (a (ix2 (0 : Fin 2) e)).toInt.toNat 99999
  rw [col_apply, start_apply a e (hr e).1]

end Cert.ReferenceIdeal.RefValue

end
-- ==== Proof.PreDecode.lean ====
/-
  What the precondition says of the source words. The precondition is the conjunction of three "all entries" tests: every
  feature finite, every edge weight finite, and every source word w (row 0 of the index pair) with 0 ≤ w and w < 100000
  as signed integers. Only the third is used: each source word is the number of a feature row.
-/
import proofs.«413934_j61211873902725_1_alg».proof.Pre_finite_inputs
import proofs.«413934_j61211873902725_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

open Idealize.ShloMosaic Idealize.ShloMosaic.ValueIdx

namespace Cert.PreDecode

open Cert.Pre_finite_inputs

open Cert.Pre_finite_inputs.Facts

/-- The rank-0 shape has exactly one index. -/
private theorem subsingleton_scalar : Subsingleton S_.Idx := ⟨fun a b => funext fun d => d.elim0⟩

/-- Row 0 of the index pair, flattened to a vector, reads at position `e` the pair's entry (0, e): the flattening keeps
    the row-major position 0 · 1600000 + e, and the row slice starts at offset (0, 0). -/
private theorem src_read [Cert.Pre_finite_inputs.Facts] (a : IVec S2x1600000 32) (e : Fin 1600000) :
    shapeCast S1600000 (extractStridedSlice S1x1600000 ![0, 0] a slices_S2x1600000_S1x1600000_0_0)
        shapeCasts_S1x1600000_S1600000 (ix1 e) = a (ix2 (0 : Fin 2) e) := by
  refine (shapeCast_apply _ _ (ix1 e) (ix2 (0 : Fin 1) e) ?_).trans ?_
  · rw [Shape.rowMajor_val_two, Shape.rowMajor_val_one]
    show (0 : Nat) * 1600000 + e.val = e.val
    omega
  · refine extractStridedSlice_apply _ _ _ _ _ ?_
    intro b
    match b with
    | ⟨0, _⟩ => rfl
    | ⟨1, _⟩ => show e.val = 0 + e.val; omega

/-- Where the precondition holds, every source word (row 0 of the index pair) is a row number: 0 ≤ w < 100000 as a
    signed integer. -/
theorem src_range [Cert.Pre_finite_inputs.Facts] (x : FVec Ideal S100000x32 .f32) (a : IVec S2x1600000 32)
    (ew : FVec Ideal S1600000 .f32) (h : Cert.Pre_finite_inputs.fn (F := Ideal) x a ew = fun _ => 1#1)
    (e : Fin 1600000) :
    0 ≤ (a (ix2 (0 : Fin 2) e)).toInt ∧ (a (ix2 (0 : Fin 2) e)).toInt < 100000 := by
  haveI := subsingleton_scalar
  -- the one bit of the precondition is the conjunction (finite features ∧ finite weights) ∧ (all source words in range)
  have h0 := congrFun h ValueIdx.ix0
  dsimp only [fn, fn_part1] at h0
  -- the third conjunct: the "all" over the 1600000 per-word bits is 1, so each per-word bit is 1
  have h1 := (IntOp.andi_eq_one.1 h0).2
  have h2 := Host.reduce_andi_all _ _ _ _ _ h1 (ix1 e)
  -- the per-word bit at e is (w ≥ 0) ∧ (w < 100000), both signed, with w the flattened row 0 at e
  obtain ⟨hge, hlt⟩ := IntOp.andi_eq_one.1 h2
  have hge' : (0#32 : BitVec 32).toInt ≤ (a (ix2 (0 : Fin 2) e)).toInt := by
    rw [← src_read a e]; exact IntOp.cmpi_sge.1 hge
  have hlt' : (a (ix2 (0 : Fin 2) e)).toInt < (100000#32 : BitVec 32).toInt := by
    rw [← src_read a e]; exact IntOp.cmpi_slt.1 hlt
  rw [show (0#32 : BitVec 32).toInt = 0 from by decide] at hge'
  rw [show (100000#32 : BitVec 32).toInt = 100000 from by decide] at hlt'
  exact ⟨hge', hlt'⟩

end Cert.PreDecode

end
-- ==== Proof.lean ====
/-
  The certificate: a gather of node rows along edges scaled by an edge weight, then summed into the edges' target rows,
  written with selecting matrices in two pipelined regions, against the reference's indexed gather and scatter-add.

  Under the precondition every source word (row 0 of the index pair) is the number of a feature row. Then both programs,
  read over the extended reals, end with the same array: row n is the sum, over the edges whose target word is n, of
  feature row src e times the weight of e (Cert.Spec.target).

  * The kernel: its run with the result buffer kept (ResultRun), the value that buffer holds (KernelValue: the host's
    re-layouts of the arguments, region 0's messages, region 1's sums, and the equality of the selecting and the indexed
    shape).
  * The reference: its generated run, whose result is the composition of its host operations, read at an entry
    (RefValue).
  * The three frames: the two kernel programs' frame certificates, and the reference's run with the result dropped.
  * The idealization rewrote nothing, so the kernel's idealization is the kernel's own text read over the extended reals.
-/
import proofs.«413934_j61211873902725_1_alg».proof.Defs
import proofs.«413934_j61211873902725_1_alg».proof.Proof.Gen.Kernel
import proofs.«413934_j61211873902725_1_alg».proof.Proof.Gen.KernelIdeal
import proofs.«413934_j61211873902725_1_alg».proof.Proof.Gen.ReferenceIdeal
import proofs.«413934_j61211873902725_1_alg».proof.Proof.Gen.Pre_finite_inputs
import proofs.«413934_j61211873902725_1_alg».proof.Proof.Gen.ReferenceIdeal.Run
import proofs.«413934_j61211873902725_1_alg».proof.Proof.WordFrame
import proofs.«413934_j61211873902725_1_alg».proof.Proof.IdealFrame
import proofs.«413934_j61211873902725_1_alg».proof.Proof.ResultRun
import proofs.«413934_j61211873902725_1_alg».proof.Proof.KernelValue
import proofs.«413934_j61211873902725_1_alg».proof.Proof.RefValue
import proofs.«413934_j61211873902725_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the indexed shape of the result of the arguments they agree on. -/
theorem algebraic : Cert.algebraic_KernelIdeal_ReferenceIdeal := by
  intro m ρ m' ρ' hpre hagree
  -- the precondition: every source word is a row number
  have hr : ∀ (c : Dev Cert.KernelIdeal.nD) (e : Fin 1600000),
      0 ≤ (Cert.KernelIdeal.Result.aIn m c (ix2 (0 : Fin 2) e)).toInt
        ∧ (Cert.KernelIdeal.Result.aIn m c (ix2 (0 : Fin 2) e)).toInt < 100000 :=
    fun c e => Cert.PreDecode.src_range _ _ _ (hpre c) e
  refine ⟨fun c => Cert.Spec.target (Cert.KernelIdeal.Result.xIn m c) (Cert.KernelIdeal.Result.aIn m c)
    (Cert.KernelIdeal.Result.ewIn m c), ?_, ?_⟩
  · exact (θ_run Cert.KernelIdeal.defs _ _).mono
      (fun _ h c => ⟨(h c).1.trans (Cert.KernelIdeal.Result.result_eq m ρ c (hr c)), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.RefValue.refOut_eq_target _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
